-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : IVec S1x1600000 32 := (extractStridedSlice S1x1600000 ![1, 0] · slices_S2x1600000_S1x1600000_1_0) main_arg1
  let main_v5 : IVec S1600000 32 := shapeCast S1600000 main_v4 shapeCasts_S1x1600000_S1600000
  let main_c_0 : IVec S_ 32 := constantI S_ 32 4294867296#32
  let main_v6 : IVec S1600000 32 := broadcastInDim S1600000 ![] bcast_S_S1600000 main_c_0
  let main_v7 : IVec S1600000 1 := cmpi .sge main_v5 main_v6
  let main_v8 : IVec S1x1600000 32 := (extractStridedSlice S1x1600000 ![1, 0] · slices_S2x1600000_S1x1600000_1_0) main_arg1
  let main_v9 : IVec S1600000 32 := shapeCast S1600000 main_v8 shapeCasts_S1x1600000_S1600000
  let main_c_1 : IVec S_ 32 := constantI S_ 32 100000#32
  let main_v10 : IVec S1600000 32 := broadcastInDim S1600000 ![] bcast_S_S1600000 main_c_1
  let main_v11 : IVec S1600000 1 := cmpi .slt main_v9 main_v10
  let main_v12 : IVec S1600000 1 := andi main_v7 main_v11
  let main_c_2 : IVec S_ 1 := constantI S_ 1 1#1
  let main_v13 : IVec S_ 1 := (fun x v => Host.reduce IntOp.andi x v reducesTo_S1600000_S_d0 h_S_) main_v12 main_c_2
  let main_v14 : IVec S_ 1 := andi main_v3 main_v13
  main_v14
-- ==== Kernel.lean ====
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x6400 : Shape := ⟨2, ![1, 6400]⟩
abbrev S6400x128 : Shape := ⟨2, ![6400, 128]⟩
abbrev S512x128 : Shape := ⟨2, ![512, 128]⟩
abbrev S512x1 : Shape := ⟨2, ![512, 1]⟩
abbrev S512x6400 : Shape := ⟨2, ![512, 6400]⟩
abbrev S512 : Shape := ⟨1, ![512]⟩

abbrev nBuf : Space → Nat
  | .hbm => 32
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1, .i32⟩
  | .hbm, ⟨16, _⟩ => ⟨S_, .i32⟩
  | .hbm, ⟨17, _⟩ => ⟨S1600000x1, .i32⟩
  | .hbm, ⟨18, _⟩ => ⟨S1600000x1, .i1⟩
  | .hbm, ⟨19, _⟩ => ⟨S1x1, .i32⟩
  | .hbm, ⟨20, _⟩ => ⟨S1600000x1, .i32⟩
  | .hbm, ⟨21, _⟩ => ⟨S1600000x1, .i1⟩
  | .hbm, ⟨22, _⟩ => ⟨S1600000x1, .i1⟩
  | .hbm, ⟨23, _⟩ => ⟨S_, .i1⟩
  | .hbm, ⟨24, _⟩ => ⟨S1600000, .i1⟩
  | .hbm, ⟨25, _⟩ => ⟨S1600000x128, .f32⟩
  | .hbm, ⟨26, _⟩ => ⟨S1600000x128, .i1⟩
  | .hbm, ⟨27, _⟩ => ⟨S_, .f32⟩
  | .hbm, ⟨28, _⟩ => ⟨S1600000x128, .f32⟩
  | .hbm, ⟨29, _⟩ => ⟨S1600000x128, .f32⟩
  | .hbm, ⟨30, _⟩ => ⟨S1600000x128, .bf16⟩
  | .hbm, ⟨31, _⟩ => ⟨S100000x128, .f32⟩
  | .local _ .vmem, ⟨0, _⟩ => ⟨S1x6400, .i32⟩
  | .local _ .vmem, ⟨1, _⟩ => ⟨S1x6400, .i32⟩
  | .local _ .vmem, ⟨2, _⟩ => ⟨S6400x128, .bf16⟩
  | .local _ .vmem, ⟨3, _⟩ => ⟨S6400x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![196, 250], ![false, false]⟩

def k0_cond2 (i : grid0.Coords) : BitVec 1 :=
  let arg1 : BitVec 32 := BitVec.ofNat 32 (i 1).val
  let c249_i32 : BitVec 32 := 249#32
  let v32 : BitVec 1 := Scalar.cmpi .eq arg1 c249_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x6400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x1600000_S1x1600000_0_0 : S2x1600000.Slices ![0, 0] S1x1600000
  shapeCasts_S1x1600000_S1600000 : S1x1600000.ShapeCasts S1600000
  shapeCasts_S1600000_S1x1600000 : S1600000.ShapeCasts S1x1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1_d0_w32 : S512x1.Iotas .tc 32 [0]
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S512x1_S512x6400 : S512x1.Broadcasts S512x6400
  broadcasts_S1x6400_S512x6400 : S1x6400.Broadcasts S512x6400
  natLt_1_32 : 1 < 32
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  reduces_S512x6400_S512 : S512x6400.Reduces [1] S512
  shapeCasts_S512_S512x1 : S512.ShapeCasts S512x1
  broadcasts_S512x1_S512x128 : S512x1.Broadcasts S512x128
  reduces_S512x128_S512 : S512x128.Reduces [1] S512
  gather_S100000x128_S1600000x1_S1600000x128_1_0_n_n_0_1_1128_wf : GatherDims.WF S100000x128 S1600000x1 S1600000x128 [1] [0] [] [0] [] 1 ![1, 128]
  dot_S512x6400_S6400x128_S512x128_1_0_0_1_n_n_wf : DotDims.WF S512x6400 S6400x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6400.size a ≤ S1x1600000.size a
  hwx0_0 : ∀ i : grid0.Coords, EltTy.bits .i32 = 32 ∨ (Rect.block (s := S1x1600000) S1x6400.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .bf16 = 32 ∨ (Rect.block (s := S1600000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x128.size a < S100000x128.size a
  hwx0_2 : ∀ i : grid0.Coords, EltTy.bits .f32 = 32 ∨ (Rect.unit (s := S100000x128) (fun a => cc0_transform_2 i a * S512x128.size a) (fun a => (Pipeline.Clip.of (cc0_transform_2 i a) (S512x128.size a) (S100000x128.size a)).extent (S512x128.size a)) fun a => Pipeline.Clip.inb (Pipeline.Clip.ok_of (hstart0_2 i a))).WholeWords (EltTy.packing .f32)
  hwxs0_2 : ∀ i : grid0.Coords, EltTy.bits .f32 = 32 ∨ (Rect.unit (s := S512x128) (fun _ => 0) (fun a => (Pipeline.Clip.of (cc0_transform_2 i a) (S512x128.size a) (S100000x128.size a)).extent (S512x128.size a)) fun a => (Nat.zero_add _).trans_le (Pipeline.Clip.extent_le (Pipeline.Clip.ok_of (hstart0_2 i a)))).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S512x6400_S6400x128_S512x128_1_0_0_1_n_n : DotDims S512x6400 S6400x128 S512x128 where
  lhsContracting := [1]
  rhsContracting := [0]
  lhsNonContracting := [0]
  rhsNonContracting := [1]
  lhsBatch := []
  rhsBatch := []
  wf := dot_S512x6400_S6400x128_S512x128_1_0_0_1_n_n_wf

abbrev win0_0 : Pipeline.Window sig grid0 :=
  Pipeline.Window.ofSpec (Memref.whole main_v2) S1x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v7) S512x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000, .f32⟩
  | .hbm, ⟨34, _⟩ => ⟨S100000x1, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Spec.lean ====
/-
  Mean aggregation of neighbour rows followed by row normalisation, as ONE function of the two argument arrays.

  The edge list is an integer array with two rows of 1 600 000 words: row 0 holds each edge's source node, row 1 the
  node whose feature row the edge carries. Edge e carries row d(e) of the feature table, where d(e) is its row-1 word
  with a negative word shifted up by 100 000, read signed and clamped into the table. Node n collects the rows carried
  by the edges whose source word, read signed, is n (an edge whose source names no node is dropped); vs n is their sum,
  dg n their number. The result's row n is (vs n / max (dg n) 1) divided by the larger of its Euclidean norm and a small
  positive constant.
-/
import Idealize.ShloMosaic.Lib.ValueIdx
import Idealize.ShloMosaic.PureOps.Ideal
import Idealize.ShloMosaic.PureOps.Ideal.Laws
import Idealize.ShloMosaic.PureOps.IdealRules

noncomputable section

open scoped BigOperators

namespace Cert.SegNorm

open Idealize.ShloMosaic Idealize.ShloMosaic.ValueIdx

/-- The edge list, the feature table, and the carried rows. -/
abbrev SMask : Shape := ⟨2, ![2, 1600000]⟩
abbrev STable : Shape := ⟨2, ![100000, 128]⟩
abbrev SCarried : Shape := ⟨2, ![1600000, 128]⟩

/-- Edge e's source word and its carried-row word. -/
def srcWord (mask : IVec SMask 32) (e : Fin 1600000) : BitVec 32 := mask (ix2 (0 : Fin 2) e)
def dstWord (mask : IVec SMask 32) (e : Fin 1600000) : BitVec 32 := mask (ix2 (1 : Fin 2) e)

/-- A negative word is shifted up by the table's height. -/
def wrapWord (d : BitVec 32) : BitVec 32 := Scalar.select (IntOp.cmpi .slt d 0#32) (IntOp.addi d 100000#32) d

/-- The table row edge e carries: the shifted word, read signed and clamped into the table. -/
def dstRow (mask : IVec SMask 32) (e : Fin 1600000) : Fin 100000 :=
  ⟨min (wrapWord (dstWord mask e)).toInt.toNat (100000 - 1), by omega⟩

/-- The carried rows: row e is the table's row dstRow e. -/
def carried (emb : STable.Idx → EReal) (mask : IVec SMask 32) : SCarried.Idx → EReal :=
  fun j => emb (ix2 (dstRow mask (j 0)) (j 1))

/-- The edges whose source word, read signed, is n. -/
def edgesOf (mask : IVec SMask 32) (n : ℕ) : Finset (Fin 1600000) :=
  Finset.univ.filter fun e => (srcWord mask e).toInt = (n : ℤ)

/-- vs n: the sum of the rows g carried into node n. -/
def nbrSum (mask : IVec SMask 32) (g : SCarried.Idx → EReal) (n : ℕ) (q : Fin 128) : EReal :=
  ∑ e ∈ edgesOf mask n, g (ix2 e q)

/-- dg n: the number of edges into node n. -/
def nbrCount (mask : IVec SMask 32) (n : ℕ) : EReal := ∑ _e ∈ edgesOf mask n, (1 : EReal)

/-- The mean of a node's carried rows, the divisor kept at least one. -/
def meanRow (vs : Fin 128 → EReal) (dg : EReal) (q : Fin 128) : EReal :=
  Ideal.div (vs q) (max dg (Ideal.ofBits .f32 0x3F800000#32))

/-- A node's result row: its mean row over the larger of that row's norm and the small constant. -/
def rowOut (vs : Fin 128 → EReal) (dg : EReal) (q : Fin 128) : EReal :=
  Ideal.div (meanRow vs dg q)
    (max (Ideal.sqrt (∑ k : Fin 128, meanRow vs dg k * meanRow vs dg k)) (Ideal.ofBits .f32 0x2B8CBCCC#32))

/-- THE RESULT as one function of the feature table and the edge list. -/
def spec (emb : STable.Idx → EReal) (mask : IVec SMask 32) : STable.Idx → EReal :=
  fun i => rowOut (fun q => nbrSum mask (carried emb mask) (i 0).val q) (nbrCount mask (i 0).val) (i 1)

/-! ## Words -/

/-- The pattern of 1.0 denotes 1. -/
theorem ofBits_one_f32 : Ideal.ofBits .f32 0x3F800000#32 = 1 := IdealRules.sign_bit.ideal_onePat .f32

/-- The signed value of the 32-bit word of a natural below 2^31 is that natural. -/
theorem toInt_ofNat_of_lt (n : ℕ) (hn : n < 2 ^ 31) : (BitVec.ofNat 32 n).toInt = (n : ℤ) := by
  rw [BitVec.toInt_eq_toNat_cond, BitVec.toNat_ofNat]
  have hm : n % 2 ^ 32 = n := Nat.mod_eq_of_lt (by omega)
  rw [hm, if_pos (by omega)]

/-- A word is the word of n (below 2^31) exactly when its signed value is n. -/
theorem ofNat_eq_iff_toInt (n : ℕ) (hn : n < 2 ^ 31) (t : BitVec 32) : BitVec.ofNat 32 n = t ↔ t.toInt = (n : ℤ) := by
  rw [eq_comm, ← BitVec.toInt_inj, toInt_ofNat_of_lt n hn]

/-- Row p of row tile i is node 512·i + p: the tile's first node as a word, times nothing lost, plus p. -/
theorem rowWord (i p : ℕ) (hi : i < 196) (hp : p < 512) :
    IntOp.addi (Scalar.muli (BitVec.ofNat 32 i) 512#32) (BitVec.ofNat 32 p) = BitVec.ofNat 32 (512 * i + p) := by
  show BitVec.ofNat 32 i * 512#32 + BitVec.ofNat 32 p = _
  apply BitVec.eq_of_toNat_eq
  simp only [BitVec.toNat_add, BitVec.toNat_mul, BitVec.toNat_ofNat]
  omega

/-- The comparison bit of two words, widened and read as a number, is 1 where they agree and 0 where not. -/
theorem hit_eq (a b : BitVec 32) :
    (((((IntOp.cmpi .eq a b).setWidth 32).toInt : ℤ) : ℝ) : EReal) = if a = b then 1 else 0 := by
  by_cases h : a = b
  · subst h; simp [IntOp.cmpi]
  · have hb : (a == b) = false := beq_eq_false_iff_ne.mpr h
    simp [IntOp.cmpi, h, hb]

/-- A shifted word within −100 000 ≤ d < 100 000 lands in the table. -/
theorem wrapWord_inb (d : BitVec 32) (h0 : (-100000 : ℤ) ≤ d.toInt) (h1 : d.toInt < 100000) :
    0 ≤ (wrapWord d).toInt ∧ (wrapWord d).toInt ≤ 99999 := by
  unfold wrapWord Scalar.select
  by_cases hneg : d.toInt < 0
  · have hc : IntOp.cmpi .slt d 0#32 = 1 := by
      simp only [IntOp.cmpi]; simp [BitVec.slt, hneg]
    rw [if_pos hc]
    show 0 ≤ (d + 100000#32).toInt ∧ (d + 100000#32).toInt ≤ 99999
    rw [BitVec.toInt_add]
    have : (100000#32 : BitVec 32).toInt = 100000 := by decide
    rw [this]
    have hb : (d.toInt + 100000).bmod (2 ^ 32) = d.toInt + 100000 := by
      apply Int.bmod_eq_of_le <;> omega
    rw [hb]; omega
  · have hc : ¬ IntOp.cmpi .slt d 0#32 = 1 := by
      simp only [IntOp.cmpi]; simp [BitVec.slt, hneg]
    rw [if_neg hc]; omega

/-! ## Sums -/

/-- A sum weighted by 0/1 marks is the sum over the marked terms. -/
theorem sum_mark_mul {ι : Type*} [Fintype ι] (p : ι → Prop) [DecidablePred p] (f : ι → EReal) :
    (∑ e, (if p e then (1 : EReal) else 0) * f e) = ∑ e ∈ Finset.univ.filter p, f e := by
  rw [Finset.sum_filter]
  refine Finset.sum_congr rfl fun e _ => ?_
  split <;> simp

/-- The marks themselves add up to the number of marked terms. -/
theorem sum_mark {ι : Type*} [Fintype ι] (p : ι → Prop) [DecidablePred p] :
    (∑ e, (if p e then (1 : EReal) else 0)) = ∑ _e ∈ Finset.univ.filter p, (1 : EReal) := by
  rw [Finset.sum_filter]

/-- The 1 600 000 edges in 250 chunks of 6 400: edge 6400·k + j is term j of chunk k. -/
theorem sum_edges_chunks {M : Type*} [AddCommMonoid M] (h : ℕ → M) :
    (∑ e : Fin 1600000, h e.val) = ∑ k : Fin 250, ∑ j : Fin 6400, h (6400 * k.val + j.val) := by
  have h1 : (∑ x : Fin (250 * 6400), h x.val) = ∑ p : Fin 250 × Fin 6400, h (finProdFinEquiv p).val :=
    (Equiv.sum_comp finProdFinEquiv (fun x : Fin (250 * 6400) => h x.val)).symm
  show (∑ x : Fin (250 * 6400), h x.val) = _
  rw [h1, Fintype.sum_prod_type]
  refine Finset.sum_congr rfl fun a _ => Finset.sum_congr rfl fun b _ => ?_
  rw [finProdFinEquiv_apply_val, Nat.add_comm]

/-- Chunks 0 … 249 taken from a range. -/
theorem sum_range_chunks {M : Type*} [AddCommMonoid M] (f : ℕ → M) :
    (∑ s ∈ Finset.range 250, f s) = ∑ k : Fin 250, f k.val := (Fin.sum_univ_eq_sum_range f 250).symm

end Cert.SegNorm

end
-- ==== Proof.SumSpec.lean ====
/-
  The addend of one grid point, and the sum of a row tile's 250 addends.

  Grid point n works on row tile n / 250 and on edge chunk n % 250: the 6 400 edges 6400·(n % 250) + j, j < 6400.
  Its addend to row p of the tile (node 512·(n / 250) + p) is the sum, over the chunk's edges, of the edge's carried
  row weighted by 1 where the edge's source word is the node's word and by 0 elsewhere; its addend to the node's edge
  count is the sum of those weights. Over the 250 points of a row tile the chunks run through all 1 600 000 edges, the
  weights pick the edges into the node, and the addends sum to the node's neighbour sum and to its edge count.
-/
import proofs.«409495_j18966575579290_1_alg».proof.Proof.Spec

noncomputable section

open scoped BigOperators

namespace Cert.SegNorm

open Idealize.ShloMosaic Idealize.ShloMosaic.ValueIdx

/-- Edge j of the chunk point n works on. -/
def edgeAt (n : ℕ) (j : Fin 6400) : Fin 1600000 :=
  ⟨6400 * (n % 250) + j.val, by have := Nat.mod_lt n (show 0 < 250 by decide); have := j.isLt; omega⟩

/-- The weight of edge e for node n: 1 where the edge's source word is the node's word. -/
def mark (mask : IVec SMask 32) (n : ℕ) (e : Fin 1600000) : EReal :=
  if BitVec.ofNat 32 n = srcWord mask e then 1 else 0

/-- Point n's addend to the carried-row sums of its row tile, at row p and column q of the tile. -/
def addend0 (mask : IVec SMask 32) (g : SCarried.Idx → EReal) (n : ℕ) (p : Fin 512) (q : Fin 128) : EReal :=
  ∑ j : Fin 6400, mark mask (512 * (n / 250) + p.val) (edgeAt n j) * g (ix2 (edgeAt n j) q)

/-- Point n's addend to the edge counts of its row tile, at row p. -/
def addend1 (mask : IVec SMask 32) (n : ℕ) (p : Fin 512) : EReal :=
  ∑ j : Fin 6400, mark mask (512 * (n / 250) + p.val) (edgeAt n j)

/-- The 1 600 000 edges in 250 chunks of 6 400. -/
theorem sum_edges_eq_chunks {M : Type*} [AddCommMonoid M] (f : Fin 1600000 → M) :
    (∑ e, f e) = ∑ s ∈ Finset.range 250, ∑ j : Fin 6400, f (edgeAt s j) := by
  rw [sum_range_chunks (fun s => ∑ j : Fin 6400, f (edgeAt s j))]
  have hext : (∑ e : Fin 1600000, f e)
      = ∑ e : Fin 1600000, (fun x : ℕ => if hx : x < 1600000 then f ⟨x, hx⟩ else 0) e.val :=
    Finset.sum_congr rfl fun e _ => by
      show f e = (if hx : e.val < 1600000 then f ⟨e.val, hx⟩ else 0)
      rw [dif_pos e.isLt]
  refine hext.trans ((sum_edges_chunks (fun x : ℕ => if hx : x < 1600000 then f ⟨x, hx⟩ else 0)).trans ?_)
  refine Finset.sum_congr rfl fun a _ => Finset.sum_congr rfl fun b _ => ?_
  have ha := a.isLt
  have hb := b.isLt
  have hlt : 6400 * a.val + b.val < 1600000 := by omega
  show (if hx : 6400 * a.val + b.val < 1600000 then f ⟨6400 * a.val + b.val, hx⟩ else 0) = _
  rw [dif_pos hlt]
  exact congrArg f (Fin.ext (by show 6400 * a.val + b.val = 6400 * (a.val % 250) + b.val; rw [Nat.mod_eq_of_lt ha]))

/-- The edges the weights pick for node n (below 2^31) are the edges into n. -/
theorem mark_filter (mask : IVec SMask 32) (n : ℕ) (hn : n < 2 ^ 31) :
    (Finset.univ.filter fun e : Fin 1600000 => BitVec.ofNat 32 n = srcWord mask e) = edgesOf mask n := by
  unfold edgesOf
  refine Finset.filter_congr fun e _ => ?_
  exact ofNat_eq_iff_toInt n hn _

/-- A row tile's 250 addends to node 512·i + p sum to the node's neighbour sum. -/
theorem sum_addend0 (mask : IVec SMask 32) (g : SCarried.Idx → EReal) (i : ℕ) (hi : i < 196) (p : Fin 512) (q : Fin 128) :
    (∑ s ∈ Finset.range 250, addend0 mask g (250 * i + s) p q) = nbrSum mask g (512 * i + p.val) q := by
  have hp := p.isLt
  unfold nbrSum
  rw [← mark_filter mask (512 * i + p.val) (by omega), ← sum_mark_mul, sum_edges_eq_chunks]
  refine Finset.sum_congr rfl fun s hs => ?_
  have hs' : s < 250 := Finset.mem_range.mp hs
  have e1 : (250 * i + s) / 250 = i := by omega
  have e2 : ∀ j : Fin 6400, edgeAt (250 * i + s) j = edgeAt s j := fun j =>
    Fin.ext (by show 6400 * ((250 * i + s) % 250) + j.val = 6400 * (s % 250) + j.val; omega)
  show (∑ j : Fin 6400, mark mask (512 * ((250 * i + s) / 250) + p.val) (edgeAt (250 * i + s) j)
      * g (ix2 (edgeAt (250 * i + s) j) q)) = _
  rw [e1]
  refine Finset.sum_congr rfl fun j _ => ?_
  rw [e2 j]
  rfl

/-- A row tile's 250 addends to node 512·i + p's count sum to the number of edges into the node. -/
theorem sum_addend1 (mask : IVec SMask 32) (i : ℕ) (hi : i < 196) (p : Fin 512) :
    (∑ s ∈ Finset.range 250, addend1 mask (250 * i + s) p) = nbrCount mask (512 * i + p.val) := by
  have hp := p.isLt
  unfold nbrCount
  rw [← mark_filter mask (512 * i + p.val) (by omega), ← sum_mark, sum_edges_eq_chunks]
  refine Finset.sum_congr rfl fun s hs => ?_
  have hs' : s < 250 := Finset.mem_range.mp hs
  have e1 : (250 * i + s) / 250 = i := by omega
  have e2 : ∀ j : Fin 6400, edgeAt (250 * i + s) j = edgeAt s j := fun j =>
    Fin.ext (by show 6400 * ((250 * i + s) % 250) + j.val = 6400 * (s % 250) + j.val; omega)
  show (∑ j : Fin 6400, mark mask (512 * ((250 * i + s) / 250) + p.val) (edgeAt (250 * i + s) j)) = _
  rw [e1]
  refine Finset.sum_congr rfl fun j _ => ?_
  rw [e2 j]
  rfl

end Cert.SegNorm

end
-- ==== Proof.KernelPieces.lean ====
/-
  What each case of the kernel body leaves in the two carried scratch buffers and in the output's staging buffer, as
  values: the body's stores read back.

  The body first, at a row tile's first chunk only, stores zeros to both scratch buffers; then at every chunk it adds the
  chunk's weighted carried rows to the first scratch buffer and the chunk's weights to the second; at a row tile's last
  chunk it then stores to the output block the normalised mean rows of what the two scratch buffers now hold. So the
  first-chunk case leaves (zeros + the chunk's addend), the middle case (what was there + the addend), and the last-chunk
  case the same in the scratch buffers and, in the output block, the finish of those two sums.
-/
import proofs.«409495_j18966575579290_1_alg».proof.Proof.KI.Frame
import Idealize.ShloMosaic.Lib.Pipeline.Value
import Idealize.ShloMosaic.Lib.Tactic

noncomputable section

namespace Cert.SegNorm.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- First chunk, carried-row sums: zeros are stored, read back, and the chunk's addend goes on top of them. -/
theorem sums_A (c : Dev nD) (i : grid0.Coords) (arg2 : Memref sig .tc .vmem S1x6400 .i32) (harg2 : arg2.IsWhole) (arg3 : Memref sig .tc .vmem S6400x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .f32) (harg6 : arg6.IsWhole) (hc0 : cond0_0 i) (hc1 : ¬cond0_1 i)
    (x0 : Vec F S1x6400 .i32) (x1 : Vec F S6400x128 .bf16) :
    sout0_A_0 c i arg2 harg2 arg3 harg3 arg4 harg4 arg5 harg5 arg6 harg6 hc0 hc1 x0 x1 = k0_pay4 i x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread, harg6.read_unread,
    View.ld_unit_zero (S := S1x6400) hz, View.ld_unit_zero (S := S6400x128) hz, View.ld_unit_zero (S := S512x128) hz, View.ld_unit_zero (S := S512x1) hz,
    View.readCov_unit_zero (S := S512x128) _ hz, View.readCov_unit_zero (S := S512x1) _ hz]

/-- First chunk, edge counts: zeros, then the chunk's weights on top of them. -/
theorem counts_A (c : Dev nD) (i : grid0.Coords) (arg2 : Memref sig .tc .vmem S1x6400 .i32) (harg2 : arg2.IsWhole) (arg3 : Memref sig .tc .vmem S6400x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .f32) (harg6 : arg6.IsWhole) (hc0 : cond0_0 i) (hc1 : ¬cond0_1 i)
    (x0 : Vec F S1x6400 .i32) (x1 : Vec F S6400x128 .bf16) :
    sout0_A_1 c i arg2 harg2 arg3 harg3 arg4 harg4 arg5 harg5 arg6 harg6 hc0 hc1 x0 x1 = k0_pay5 i x0 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread,
    View.ld_unit_zero (S := S1x6400) hz, View.ld_unit_zero (S := S6400x128) hz, View.ld_unit_zero (S := S512x128) hz, View.ld_unit_zero (S := S512x1) hz,
    View.readCov_unit_zero (S := S512x128) _ hz, View.readCov_unit_zero (S := S512x1) _ hz]

/-- A middle chunk, carried-row sums: what the chunk before left, plus the chunk's addend. -/
theorem sums_B (c : Dev nD) (i : grid0.Coords) (arg2 : Memref sig .tc .vmem S1x6400 .i32) (harg2 : arg2.IsWhole) (arg3 : Memref sig .tc .vmem S6400x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .f32) (harg6 : arg6.IsWhole) (hc0 : ¬cond0_0 i) (hc1 : ¬cond0_1 i)
    (x0 : Vec F S1x6400 .i32) (x1 : Vec F S6400x128 .bf16) (xs0 : Vec F S512x128 .f32) (xs1 : Vec F S512x1 .f32) :
    sout0_B_0 c i arg2 harg2 arg3 harg3 arg4 harg4 arg5 harg5 arg6 harg6 hc0 hc1 x0 x1 xs0 xs1 = k0_pay4 i x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg4.read_unread, harg5.read_unread, harg6.read_unread,
    View.ld_unit_zero (S := S1x6400) hz, View.ld_unit_zero (S := S6400x128) hz, View.ld_unit_zero (S := S512x128) hz, View.ld_unit_zero (S := S512x1) hz,
    View.readCov_unit_zero (S := S512x128) _ hz, View.readCov_unit_zero (S := S512x1) _ hz]

/-- A middle chunk, edge counts: what the chunk before left, plus the chunk's weights. -/
theorem counts_B (c : Dev nD) (i : grid0.Coords) (arg2 : Memref sig .tc .vmem S1x6400 .i32) (harg2 : arg2.IsWhole) (arg3 : Memref sig .tc .vmem S6400x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .f32) (harg6 : arg6.IsWhole) (hc0 : ¬cond0_0 i) (hc1 : ¬cond0_1 i)
    (x0 : Vec F S1x6400 .i32) (x1 : Vec F S6400x128 .bf16) (xs0 : Vec F S512x128 .f32) (xs1 : Vec F S512x1 .f32) :
    sout0_B_1 c i arg2 harg2 arg3 harg3 arg4 harg4 arg5 harg5 arg6 harg6 hc0 hc1 x0 x1 xs0 xs1 = k0_pay5 i x0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg4.read_unread, harg5.read_unread, harg6.read_unread,
    View.ld_unit_zero (S := S1x6400) hz, View.ld_unit_zero (S := S6400x128) hz, View.ld_unit_zero (S := S512x128) hz, View.ld_unit_zero (S := S512x1) hz,
    View.readCov_unit_zero (S := S512x128) _ hz, View.readCov_unit_zero (S := S512x1) _ hz]

/-- The last chunk, carried-row sums: as at a middle chunk. -/
theorem sums_C (c : Dev nD) (i : grid0.Coords) (arg2 : Memref sig .tc .vmem S1x6400 .i32) (harg2 : arg2.IsWhole) (arg3 : Memref sig .tc .vmem S6400x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .f32) (harg6 : arg6.IsWhole) (hc0 : ¬cond0_0 i) (hc1 : cond0_1 i)
    (x0 : Vec F S1x6400 .i32) (x1 : Vec F S6400x128 .bf16) (xs0 : Vec F S512x128 .f32) (xs1 : Vec F S512x1 .f32) :
    sout0_C_0 c i arg2 harg2 arg3 harg3 arg4 harg4 arg5 harg5 arg6 harg6 hc0 hc1 x0 x1 xs0 xs1 = k0_pay4 i x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg4.read_unread, harg5.read_unread, harg6.read_unread,
    View.ld_unit_zero (S := S1x6400) hz, View.ld_unit_zero (S := S6400x128) hz, View.ld_unit_zero (S := S512x128) hz, View.ld_unit_zero (S := S512x1) hz,
    View.readCov_unit_zero (S := S512x128) _ hz, View.readCov_unit_zero (S := S512x1) _ hz]

/-- The last chunk, edge counts: as at a middle chunk. -/
theorem counts_C (c : Dev nD) (i : grid0.Coords) (arg2 : Memref sig .tc .vmem S1x6400 .i32) (harg2 : arg2.IsWhole) (arg3 : Memref sig .tc .vmem S6400x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .f32) (harg6 : arg6.IsWhole) (hc0 : ¬cond0_0 i) (hc1 : cond0_1 i)
    (x0 : Vec F S1x6400 .i32) (x1 : Vec F S6400x128 .bf16) (xs0 : Vec F S512x128 .f32) (xs1 : Vec F S512x1 .f32) :
    sout0_C_1 c i arg2 harg2 arg3 harg3 arg4 harg4 arg5 harg5 arg6 harg6 hc0 hc1 x0 x1 xs0 xs1 = k0_pay5 i x0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg4.read_unread, harg5.read_unread, harg6.read_unread,
    View.ld_unit_zero (S := S1x6400) hz, View.ld_unit_zero (S := S6400x128) hz, View.ld_unit_zero (S := S512x128) hz, View.ld_unit_zero (S := S512x1) hz,
    View.readCov_unit_zero (S := S512x128) _ hz, View.readCov_unit_zero (S := S512x1) _ hz]

/-- The last chunk, the output block: the finish of the two sums the chunk has just completed. -/
theorem out_C (c : Dev nD) (i : grid0.Coords) (arg2 : Memref sig .tc .vmem S1x6400 .i32) (harg2 : arg2.IsWhole) (arg3 : Memref sig .tc .vmem S6400x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .f32) (harg6 : arg6.IsWhole) (hc0 : ¬cond0_0 i) (hc1 : cond0_1 i)
    (x0 : Vec F S1x6400 .i32) (x1 : Vec F S6400x128 .bf16) (xs0 : Vec F S512x128 .f32) (xs1 : Vec F S512x1 .f32) :
    out0_C_2 c i arg2 harg2 arg3 harg3 arg4 harg4 arg5 harg5 arg6 harg6 hc0 hc1 x0 x1 xs0 xs1 = k0_pay6 (k0_pay5 i x0 xs1) (k0_pay4 i x0 x1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg4.read_unread, harg5.read_unread, harg6.read_unread,
    View.ld_unit_zero (S := S1x6400) hz, View.ld_unit_zero (S := S6400x128) hz, View.ld_unit_zero (S := S512x128) hz, View.ld_unit_zero (S := S512x1) hz,
    View.readCov_unit_zero (S := S512x128) _ hz, View.readCov_unit_zero (S := S512x1) _ hz]

end Cert.SegNorm.Pieces

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.KernelPay.lean ====
/-
  The values the kernel body stores, read at one element, at the ideal instance.

  The body works on one tile of 512 nodes and one chunk of 6 400 edges. It compares each node's word — the tile number
  times 512, plus the row number — with each edge's source word; the comparison bits, widened and converted, are 0/1
  marks. The marks times the chunk's carried rows are added to the tile's row sums, the marks' lane sums to the tile's
  counts; both start at zero. After the last chunk each row of sums is divided by its count, kept at least one, and the
  mean row by the larger of its Euclidean norm and a small constant.

  First the shape operations the body uses that read one element of their operand (a vector viewed as a column, a
  column repeated along the lanes, a lane sum kept as a column); then each stored value over its operands, the shape
  conditions of its operations taken as hypotheses; last the body's stored values themselves, which are those terms.
-/
import proofs.«409495_j18966575579290_1_alg».proof.Proof.Gen.KernelIdeal.Skeleton
import proofs.«409495_j18966575579290_1_alg».proof.Proof.Spec
import proofs.«409495_j18966575579290_1_alg».proof.Proof.LibPlainMatmul
import Idealize.ShloMosaic.Lib.Pipeline.Value
import Idealize.ShloMosaic.Lib.ValueLayout
import Idealize.ShloMosaic.PureOps.Ideal.Laws

noncomputable section

open scoped BigOperators

namespace Cert.SegNorm.Pay

open Cert.KernelIdeal Cert.KernelIdeal.Gen Cert.SegNorm Idealize.ShloMosaic Idealize.ShloMosaic.ValueIdx

/-! ## Shape operations read at an element -/

section Layout
variable {α : Type}

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `p` with lane `k` put back on the summed axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (match ax with | ⟨0, _⟩ => rfl | ⟨1, _⟩ => rfl)

end Layout

/-- A lane sum of an `[a, b]` array kept as a column: at `(p, 0)` the sum over the lanes of row `p`. -/
theorem rowSum_col_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) := by
  refine (shapeCast_a_a1_apply _ hc p u).trans ?_
  refine (Ideal.multiReduction_add_single src 0x00000000#32 h hφ hacc (ix1 p)).trans ?_
  exact Finset.sum_congr rfl fun k _ => congrArg src (lift_row h p k)

/-- The comparison bit of two words, widened and converted, is the 0/1 mark of their agreement. -/
theorem mark_eq (x y : BitVec 32) :
    (FloatOps.sitofp (F := Ideal) .f32 ((IntOp.cmpi .eq x y).setWidth 32) : EReal) = if x = y then 1 else 0 :=
  hit_eq x y

/-! ## The body's values over their operands

Each stored value of the body is read here at one element as a function of the operands it is computed from, the shape
conditions of its operations taken as hypotheses. -/

section Body

/-- THE HIT BITS. Row `p` of the tile's node words — the tile number times 512, plus the row number — against the
    chunk's edge words, one row of them repeated down the tile: at `(p, j)` the comparison bit of the word of node
    `512·t + p` with edge word `j`. -/
theorem hitBit_apply (t : ℕ) (ht : t < 196) (v7 : IVec ⟨2, ![1, 6400]⟩ 32)
    (hι : (⟨2, ![512, 1]⟩ : Shape).Iotas .tc 32 [0])
    (hc : (⟨2, ![1, 6400]⟩ : Shape).ShapeCasts ⟨2, ![1, 6400]⟩)
    (hb1 : (⟨2, ![512, 1]⟩ : Shape).Broadcasts ⟨2, ![512, 6400]⟩)
    (hb2 : (⟨2, ![1, 6400]⟩ : Shape).Broadcasts ⟨2, ![512, 6400]⟩) (p : Fin 512) (j : Fin 6400) :
    cmpi .eq
        (broadcastTo ⟨2, ![512, 6400]⟩
          (addi (broadcast ⟨2, ![512, 1]⟩ (Scalar.muli (BitVec.ofNat 32 t) 512#32)) (iota .tc ⟨2, ![512, 1]⟩ 32 [0] hι)) hb1)
        (broadcastTo ⟨2, ![512, 6400]⟩ (shapeCast ⟨2, ![1, 6400]⟩ v7 hc) hb2) (ix2 p j)
      = IntOp.cmpi .eq (BitVec.ofNat 32 (512 * t + p.val)) (v7 (ix2 (0 : Fin 1) j)) := by
  refine congrArg₂ (IntOp.cmpi .eq) ?_ ?_
  · refine (broadcastTo_a1_ab_apply _ hb1 p j).trans ?_
    show IntOp.addi (Scalar.muli (BitVec.ofNat 32 t) 512#32) (iota .tc ⟨2, ![512, 1]⟩ 32 [0] hι (ix2 p (0 : Fin 1))) = _
    rw [iota_single_apply]
    exact rowWord t p.val ht p.isLt
  · refine (broadcastTo_1b_ab_apply _ hb2 p j).trans ?_
    rw [shapeCast_self]

/-- The hit bits widened and converted: the 0/1 marks. -/
theorem hitMark_apply (bit : IVec ⟨2, ![512, 6400]⟩ 1) (x y : BitVec 32) (h132 : 1 < 32) (p : Fin 512) (j : Fin 6400)
    (hbit : bit (ix2 p j) = IntOp.cmpi .eq x y) :
    (sitofp .f32 (extui 32 bit h132) : FVec Ideal ⟨2, ![512, 6400]⟩ .f32) (ix2 p j) = if x = y then 1 else 0 := by
  show FloatOps.sitofp (F := Ideal) .f32 ((bit (ix2 p j)).setWidth 32) = _
  rw [hbit]
  exact mark_eq x y

/-- THE ROW SUMS. The accumulator tile plus the product of the marks with the chunk's carried rows, into a zero
    accumulator: at `(p, q)` the old value plus the sum over the chunk's edges of mark times carried entry. The
    narrowing of the marks before the product is the identity on their values. -/
theorem accTile_apply (marks : FVec Ideal ⟨2, ![512, 6400]⟩ .f32) (v15 : FVec Ideal ⟨2, ![6400, 128]⟩ .bf16)
    (v18 : FVec Ideal ⟨2, ![512, 128]⟩ .f32)
    (d : DotDims ⟨2, ![512, 6400]⟩ ⟨2, ![6400, 128]⟩ ⟨2, ![512, 128]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hc15 : (⟨2, ![6400, 128]⟩ : Shape).ShapeCasts ⟨2, ![6400, 128]⟩)
    (hcs : (⟨2, ![512, 128]⟩ : Shape).ShapeCasts ⟨2, ![512, 128]⟩) (p : Fin 512) (q : Fin 128)
    (g : Fin 6400 → EReal) (hg : ∀ j, marks (ix2 p j) = g j) :
    shapeCast ⟨2, ![512, 128]⟩
        (addf v18 (matmul d none (truncf .bf16 marks hlt) (shapeCast ⟨2, ![6400, 128]⟩ v15 hc15)
          (constant ⟨2, ![512, 128]⟩ .f32 0x00000000#32))) hcs (ix2 p q)
      = v18 (ix2 p q) + ∑ j : Fin 6400, g j * v15 (ix2 j q) := by
  rw [shapeCast_self, shapeCast_self]
  refine (addf_apply _ _ _).trans ?_
  refine congrArg (v18 (ix2 p q) + ·) ?_
  refine (Cert.Lib.PlainMatmul.matmul_zero_apply d h1 h2 h3 h4 h5 h6 none _ _ p q).trans ?_
  exact Finset.sum_congr rfl fun j _ => congrArg (· * v15 (ix2 j q)) (hg j)

/-- THE COUNTS. The count column plus the lane sums of the marks, kept as a column: at `(p, 0)` the old value plus
    the sum over the chunk's edges of row `p`'s marks. -/
theorem countCol_apply (marks : FVec Ideal ⟨2, ![512, 6400]⟩ .f32) (v27 : FVec Ideal ⟨2, ![512, 1]⟩ .f32)
    (hr : Shape.Reduces ⟨2, ![512, 6400]⟩ [1] ⟨1, ![512]⟩) (hφ : FKind.Formats .f32)
    (hacc : (0x00000000#32 : BitVec 32) = 0x00000000#32)
    (hc : (⟨1, ![512]⟩ : Shape).ShapeCasts ⟨2, ![512, 1]⟩)
    (hcs : (⟨2, ![512, 1]⟩ : Shape).ShapeCasts ⟨2, ![512, 1]⟩) (p : Fin 512)
    (g : Fin 6400 → EReal) (hg : ∀ j, marks (ix2 p j) = g j) :
    shapeCast ⟨2, ![512, 1]⟩
        (addf v27 (shapeCast ⟨2, ![512, 1]⟩
          (multiReduction (F := Ideal) .add [1] ⟨1, ![512]⟩ marks 0x00000000#32 hr hφ hacc) hc)) hcs (ix2 p (0 : Fin 1))
      = v27 (ix2 p (0 : Fin 1)) + ∑ j : Fin 6400, g j := by
  rw [shapeCast_self]
  refine (addf_apply _ _ _).trans ?_
  refine congrArg (v27 (ix2 p (0 : Fin 1)) + ·) ?_
  refine (rowSum_col_apply marks hr hφ hacc hc p 0).trans ?_
  exact Finset.sum_congr rfl fun j _ => hg j

/-- THE MEAN ROWS. The row sums over the count column, the count kept at least one and repeated along the lanes: at
    `(p, q)` entry `q` of the mean of row `p`. -/
theorem meanTile_apply (v35 : FVec Ideal ⟨2, ![512, 1]⟩ .f32) (v38 : FVec Ideal ⟨2, ![512, 128]⟩ .f32)
    (hb : (⟨2, ![512, 1]⟩ : Shape).Broadcasts ⟨2, ![512, 128]⟩) (p : Fin 512) (q : Fin 128) :
    divf v38 (broadcastTo ⟨2, ![512, 128]⟩
        (maximumf v35 (broadcast ⟨2, ![512, 1]⟩ (Scalar.ofBits .f32 0x3F800000#32))) hb) (ix2 p q)
      = meanRow (fun k => v38 (ix2 p k)) (v35 (ix2 p (0 : Fin 1))) q := by
  unfold meanRow
  refine (divf_apply _ _ _).trans ?_
  exact congrArg (Ideal.div (v38 (ix2 p q))) ((broadcastTo_a1_ab_apply _ hb p q).trans rfl)

/-- THE RESULT ROWS. A tile `m` whose row `p` is a mean row, over the larger of that row's norm — the root of the lane
    sum of its squares, kept as a column and repeated along the lanes — and the small constant: at `(p, q)` entry `q`
    of the result row. -/
theorem rowNorm_apply (m : FVec Ideal ⟨2, ![512, 128]⟩ .f32) (vs : Fin 128 → EReal) (dg : EReal)
    (hb : (⟨2, ![512, 1]⟩ : Shape).Broadcasts ⟨2, ![512, 128]⟩)
    (hr : Shape.Reduces ⟨2, ![512, 128]⟩ [1] ⟨1, ![512]⟩) (hφ : FKind.Formats .f32)
    (hacc : (0x00000000#32 : BitVec 32) = 0x00000000#32)
    (hc : (⟨1, ![512]⟩ : Shape).ShapeCasts ⟨2, ![512, 1]⟩) (p : Fin 512) (q : Fin 128)
    (hm : ∀ k, m (ix2 p k) = meanRow vs dg k) :
    divf m (broadcastTo ⟨2, ![512, 128]⟩
        (maximumf
          (sqrt (shapeCast ⟨2, ![512, 1]⟩
            (multiReduction (F := Ideal) .add [1] ⟨1, ![512]⟩ (mulf m m) 0x00000000#32 hr hφ hacc) hc))
          (broadcast ⟨2, ![512, 1]⟩ (Scalar.ofBits .f32 0x2B8CBCCC#32))) hb) (ix2 p q)
      = rowOut vs dg q := by
  unfold rowOut
  refine (divf_apply _ _ _).trans ?_
  refine congrArg₂ Ideal.div (hm q) ?_
  refine (broadcastTo_a1_ab_apply _ hb p q).trans ?_
  show max (Ideal.sqrt (shapeCast ⟨2, ![512, 1]⟩
      (multiReduction (F := Ideal) .add [1] ⟨1, ![512]⟩ (mulf m m) 0x00000000#32 hr hφ hacc) hc (ix2 p (0 : Fin 1))))
    (Ideal.ofBits .f32 0x2B8CBCCC#32) = _
  refine congrArg (fun s => max (Ideal.sqrt s) (Ideal.ofBits .f32 0x2B8CBCCC#32)) ?_
  refine (rowSum_col_apply (mulf m m) hr hφ hacc hc p 0).trans ?_
  exact Finset.sum_congr rfl fun k _ => congrArg₂ (· * ·) (hm k) (hm k)

end Body

/-! ## The body's stored values at an element -/

/-- The row-sum accumulator is started at zero. -/
theorem pay1_apply (y : S512x128.Idx) : k0_pay1 (F := Ideal) y = 0 := by
  unfold k0_pay1
  exact Ideal.ofBits_zero_f32

/-- The count column is started at zero. -/
theorem pay2_apply (y : S512x1.Idx) : k0_pay2 (F := Ideal) y = 0 := by
  unfold k0_pay2
  exact Ideal.ofBits_zero_f32

/-- The hit bit of row `p` of row tile `i₀` with edge `j` of the chunk: the word of node `512·i₀ + p` against the
    edge's source word. -/
theorem pay3_apply (i : grid0.Coords) (v7 : Vec Ideal S1x6400 .i32) (p : Fin 512) (j : Fin 6400) :
    k0_pay3 (F := Ideal) i v7 (ix2 p j)
      = IntOp.cmpi .eq (BitVec.ofNat 32 (512 * (i 0).val + p.val)) (v7 (ix2 (0 : Fin 1) j)) := by
  unfold k0_pay3
  exact hitBit_apply (i 0).val (i 0).isLt v7 _ _ _ _ p j

/-- The row sums after this chunk: the old sums plus, edge by edge, the carried entry where the edge's source is the
    row's node. -/
theorem pay4_apply (i : grid0.Coords) (v7 : Vec Ideal S1x6400 .i32) (v15 : Vec Ideal S6400x128 .bf16)
    (v18 : Vec Ideal S512x128 .f32) (p : Fin 512) (q : Fin 128) :
    k0_pay4 (F := Ideal) i v7 v15 v18 (ix2 p q)
      = v18 (ix2 p q) + ∑ j : Fin 6400,
          (if BitVec.ofNat 32 (512 * (i 0).val + p.val) = v7 (ix2 (0 : Fin 1) j) then (1 : EReal) else 0) * v15 (ix2 j q) := by
  unfold k0_pay4
  exact accTile_apply _ v15 v18 _ rfl rfl rfl rfl rfl rfl _ _ _ p q _
    fun j => hitMark_apply _ _ _ _ p j (pay3_apply i v7 p j)

/-- The counts after this chunk: the old counts plus the number of the chunk's edges whose source is the row's node. -/
theorem pay5_apply (i : grid0.Coords) (v7 : Vec Ideal S1x6400 .i32) (v27 : Vec Ideal S512x1 .f32) (p : Fin 512) :
    k0_pay5 (F := Ideal) i v7 v27 (ix2 p (0 : Fin 1))
      = v27 (ix2 p (0 : Fin 1)) + ∑ j : Fin 6400,
          (if BitVec.ofNat 32 (512 * (i 0).val + p.val) = v7 (ix2 (0 : Fin 1) j) then (1 : EReal) else 0) := by
  unfold k0_pay5
  exact countCol_apply _ v27 _ _ _ _ _ p _ fun j => hitMark_apply _ _ _ _ p j (pay3_apply i v7 p j)

/-- The result tile: row `p` is the result row of the row sums' row `p` and the count at `p`. -/
theorem pay6_apply (v35 : Vec Ideal S512x1 .f32) (v38 : Vec Ideal S512x128 .f32) (p : Fin 512) (q : Fin 128) :
    k0_pay6 (F := Ideal) v35 v38 (ix2 p q) = rowOut (fun k => v38 (ix2 p k)) (v35 (ix2 p (0 : Fin 1))) q := by
  unfold k0_pay6
  exact rowNorm_apply _ _ _ _ _ _ _ _ p q fun k => meanTile_apply v35 v38 _ p k

end Cert.SegNorm.Pay

end
-- ==== Proof.LibRows.lean ====
/-
  Two host operations read at an element, for any extents: a ROW GATHER (`table[idx]` over a rank-2 table: result row `e`
  is the table's row named by start index `e`, read signed and clamped into the table) and a ROW SCATTER-ADD onto a rank-2
  operand (`operand.at[idx].add(updates)`: element `(n, q)` of the result is the operand's plus the sum of the updates'
  `(e, q)` over the update rows `e` whose start index, read signed and not clamped, is `n`; a row landing outside the
  operand contributes nothing).
-/
import Idealize.ShloMosaic.Lib.ValueIdx
import Idealize.ShloMosaic.PureOps.Ideal

noncomputable section

open scoped BigOperators

namespace Cert.LibRows

open Idealize.ShloMosaic Idealize.ShloMosaic.ValueIdx

/-! ## The row gather -/

/-- The start-indices index a result index `(e, q)` reads, whatever the component: row `e` of the index column
    (the result's one batch axis is axis 0, which reads the start indices' axis 0; the index vector's axis holds the
    component, and a start index has one). -/
theorem gather_siIdx {N C E : Nat} (d : GatherDims ⟨2, ![N, C]⟩ ⟨2, ![E, 1]⟩ ⟨2, ![E, C]⟩)
    (hoff : d.offsetDims = [1]) (hsim : d.startIndexMap = [0]) (hivd : d.indexVectorDim = 1)
    (e : Fin E) (q : Fin C) (c : Fin d.startIndexMap.length) :
    d.siIdx (ix2 e q) c = ix2 e (0 : Fin 1) := by
  obtain ⟨od, cd, ob, sb, sm, iv, ss, wf⟩ := d
  dsimp only at hoff hsim hivd c ⊢
  subst hoff hsim hivd
  funext b
  apply Fin.ext
  match b with
  | ⟨0, _⟩ => rfl
  | ⟨1, _⟩ => exact Nat.lt_one_iff.mp c.isLt

/-- Axis 0 of the operand index: the start index of row `e`, read signed and clamped into the table (the axis is
    collapsed, slice size 1: no batching and no offset coordinate). -/
theorem gather_operandIdx_row {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (q : Fin C) :
    (d.operandIdx (ix2 e q) idx (0 : Fin 2)).val = min (idx (ix2 e (0 : Fin 1))).toInt.toNat (N - 1) := by
  have hsl : d.sliceSizes 0 = 1 := d.slice_collapsed 0 (by rw [hcoll]; exact List.mem_singleton.mpr rfl)
  have h0 : (0 : Fin 2) ∈ d.startIndexMap := by rw [hsim]; exact List.mem_singleton.mpr rfl
  have hc : (0 : Fin 2) ∉ d.sKept := fun h => ((d.mem_sKept 0).mp h).1 (by rw [hcoll]; exact List.mem_singleton.mpr rfl)
  have hb : (0 : Fin 2) ∉ d.operandBatchingDims := by rw [hob]; exact List.not_mem_nil
  show d.start (ix2 e q) idx 0 + d.batchCoord (ix2 e q) 0 + d.offCoord (ix2 e q) 0 = _
  rw [d.batchCoord_eq_zero _ _ hb, d.offCoord_eq_zero _ _ hc, Nat.add_zero]
  unfold GatherDims.start
  rw [dif_pos h0, gather_siIdx d hoff hsim hivd, hsl]
  rfl

/-- Axis 1 of the operand index: the result's column (the start index map does not name the axis, it is not a
    batching axis, and it is the one kept axis, read by the result's one offset axis). -/
theorem gather_operandIdx_col {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0])
    (idx : IVec ⟨2, ![E, 1]⟩ w) (e : Fin E) (q : Fin C) :
    (d.operandIdx (ix2 e q) idx (1 : Fin 2)).val = q.val := by
  obtain ⟨od, cd, ob, sb, sm, iv, ss, wf⟩ := d
  dsimp only at hoff hcoll hob hsim
  subst hoff hcoll hob hsim
  have h1 : (1 : Fin 2) ∉ ([0] : List (Fin 2)) := by decide
  simp only [GatherDims.operandIdx]
  rw [GatherDims.batchCoord_eq_zero _ _ _ List.not_mem_nil]
  unfold GatherDims.start GatherDims.offCoord
  rw [dif_neg h1, dif_pos ((GatherDims.mem_sKept _ _).mpr ⟨h1, List.not_mem_nil⟩), Nat.zero_add]
  rfl

/-- THE ROW GATHER: the dimension numbers are the printed ones of `table[idx]` over a rank-2 table with the start
    indices an [E × 1] column (each hypothesis holds of a printed record by `rfl`). -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  match a with
  | ⟨0, _⟩ => exact gather_operandIdx_row d hoff hcoll hob hsim hivd idx e q
  | ⟨1, _⟩ => exact gather_operandIdx_col d hoff hcoll hob hsim idx e q

/-! ## The row scatter-add -/

/-- The scatter-indices index an update index `(e, q')` reads, whatever the component: row `e` of the index column
    (the updates' one scatter axis is axis 0, which reads the scatter indices' axis 0). -/
theorem scatter_siIdx {N C E : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

/-- On axis 0 the window starts at the index word of row `e`, read signed and not clamped. -/
theorem scatter_start_row {N C E w : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx (0 : Fin 2) = (idx (ix2 e (0 : Fin 1))).toInt := by
  have h0 : (0 : Fin 2) ∈ d.scatterDimsToOperandDims := by rw [hsd]; exact List.mem_singleton.mpr rfl
  unfold ScatterDims.start
  rw [dif_pos h0, scatter_siIdx d huw hsd hivd]

/-- On axis 1 it starts at 0: the map does not name that axis. -/
theorem scatter_start_col {N C E w : Nat} (d : ScatterDims ⟨2, ![N, C]⟩ ⟨2, ![E, 1]⟩ ⟨2, ![E, C]⟩)
    (hsd : d.scatterDimsToOperandDims = [0])
    (idx : IVec ⟨2, ![E, 1]⟩ w) (j : (⟨2, ![E, C]⟩ : Shape).Idx) :
    d.start j idx (1 : Fin 2) = 0 := by
  have h1 : (1 : Fin 2) ∉ d.scatterDimsToOperandDims := by
    rw [hsd]; exact (show (1 : Fin 2) ∉ ([0] : List (Fin 2)) by decide)
  unfold ScatterDims.start
  rw [dif_neg h1]

/-- Axis 0 is the inserted axis: no window coordinate there. -/
theorem scatter_window_row {N C E : Nat} (d : ScatterDims ⟨2, ![N, C]⟩ ⟨2, ![E, 1]⟩ ⟨2, ![E, C]⟩)
    (hiw : d.insertedWindowDims = [0]) (j : (⟨2, ![E, C]⟩ : Shape).Idx) :
    d.window j (0 : Fin 2) = 0 := by
  have h0 : (0 : Fin 2) ∉ d.sKept := by
    simp [ScatterDims.sKept, Shape.kept, List.mem_filter, hiw]
  unfold ScatterDims.window
  rw [dif_neg h0]

/-- Axis 1 is the one kept axis, read by the updates' one window axis: its coordinate is the update's column. -/
theorem scatter_window_col {N C E : Nat} (d : ScatterDims ⟨2, ![N, C]⟩ ⟨2, ![E, 1]⟩ ⟨2, ![E, C]⟩)
    (huw : d.updateWindowDims = [1]) (hiw : d.insertedWindowDims = [0]) (e : Fin E) (q' : Fin C) :
    d.window (ix2 e q') (1 : Fin 2) = q'.val := by
  have h1 : (1 : Fin 2) ∈ d.sKept := by
    simp [ScatterDims.sKept, Shape.kept, List.mem_filter, hiw]
  obtain ⟨uw, iw, sd, iv, wf⟩ := d
  dsimp only at huw hiw
  subst huw hiw
  unfold ScatterDims.window
  rw [dif_pos h1]
  rfl

/-- WHERE AN UPDATE LANDS: update `(e, q')` lands at `(n, q)` exactly when its row's index word, read signed, is `n`
    and the columns agree. On axis 0 the landing coordinate is the index word (start) plus 0 (no window coordinate),
    in range exactly when it is some `n` below `N`; on axis 1 it is 0 plus `q'`, always in range. -/
theorem scatter_resultIdx_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (q' : Fin C) (n : Fin N) (q : Fin C) :
    d.resultIdx? (ix2 e q') idx = some (ix2 n q)
      ↔ ((idx (ix2 e (0 : Fin 1))).toInt = (n.val : ℤ) ∧ q' = q) := by
  have hs0 := scatter_start_row d huw hsd hivd idx e q'
  have hs1 := scatter_start_col d hsd idx (ix2 e q')
  have hw0 := scatter_window_row d hiw (ix2 e q')
  have hw1 := scatter_window_col d huw hiw e q'
  have hN : (⟨2, ![N, C]⟩ : Shape).size (0 : Fin 2) = N := rfl
  have hC : (⟨2, ![N, C]⟩ : Shape).size (1 : Fin 2) = C := rfl
  have hn := n.isLt
  have hq' := q'.isLt
  unfold ScatterDims.resultIdx?
  constructor
  · intro h
    split at h
    · next hin =>
      -- in range on both axes: compare the landing index with (n, q) coordinate by coordinate
      have hf := Option.some.inj h
      have c0 : (d.start (ix2 e q') idx 0 + d.window (ix2 e q') 0).toNat = n.val :=
        congrArg (fun f => (f (0 : Fin 2)).val) hf
      have c1 : (d.start (ix2 e q') idx 1 + d.window (ix2 e q') 1).toNat = q.val :=
        congrArg (fun f => (f (1 : Fin 2)).val) hf
      have b0 := hin 0
      rw [hs0, hw0] at c0 b0
      rw [hs1, hw1] at c1
      exact ⟨by omega, Fin.ext (by omega)⟩
    · exact absurd h (by simp)
  · rintro ⟨hi, rfl⟩
    have p0 : 0 ≤ d.start (ix2 e q') idx 0 + d.window (ix2 e q') 0
        ∧ d.start (ix2 e q') idx 0 + d.window (ix2 e q') 0 < (⟨2, ![N, C]⟩ : Shape).size (0 : Fin 2) := by
      rw [hs0, hw0, hi, hN]; omega
    have p1 : 0 ≤ d.start (ix2 e q') idx 1 + d.window (ix2 e q') 1
        ∧ d.start (ix2 e q') idx 1 + d.window (ix2 e q') 1 < (⟨2, ![N, C]⟩ : Shape).size (1 : Fin 2) := by
      rw [hs1, hw1, hC]; omega
    rw [dif_pos (Fin.forall_fin_two.mpr ⟨p0, p1⟩)]
    congr 1
    funext a
    apply Fin.ext
    match a with
    | ⟨0, _⟩ =>
      show (d.start (ix2 e q') idx 0 + d.window (ix2 e q') 0).toNat = n.val
      rw [hs0, hw0, hi]; omega
    | ⟨1, _⟩ =>
      show (d.start (ix2 e q') idx 1 + d.window (ix2 e q') 1).toNat = q'.val
      rw [hs1, hw1]; omega

/-- THE ROW SCATTER-ADD at the ideal instance: the dimension numbers are the printed ones of a segment sum over rows
    (each hypothesis holds of a printed record by `rfl`). -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    (Host.scatterAdd (F := Ideal) (φ := .f32) d x idx upd : (⟨2, ![N, C]⟩ : Shape).Idx → EReal) (ix2 n q)
      = x (ix2 n q)
        + ∑ e ∈ Finset.univ.filter (fun e : Fin E => (idx (ix2 e (0 : Fin 1))).toInt = (n.val : ℤ)), upd (ix2 e q) := by
  -- every update index is (row, column): the landing criterion read at it
  have key : ∀ j : (⟨2, ![E, C]⟩ : Shape).Idx, d.resultIdx? j idx = some (ix2 n q)
      ↔ ((idx (ix2 (j 0) (0 : Fin 1))).toInt = (n.val : ℤ) ∧ j 1 = q) := fun j => by
    have := scatter_resultIdx_iff d huw hiw hsd hivd idx (j 0) (j 1) n q
    rw [congrArg (fun k => d.resultIdx? k idx) (eq_ix2 j)]
    exact this
  -- an update landing at (n, q) sits in column q
  have back : ∀ j : (⟨2, ![E, C]⟩ : Shape).Idx, d.resultIdx? j idx = some (ix2 n q) → ix2 (j 0) q = j := fun j hj => by
    rw [← ((key j).mp hj).2]; exact (eq_ix2 j).symm
  show x (ix2 n q) + ∑ j ∈ Finset.univ.filter (fun j => d.resultIdx? j idx = some (ix2 n q)), upd j = _
  congr 1
  -- so the updates landing at (n, q) are the (e, q) over the rows e whose index word reads n: re-index by the row
  refine Finset.sum_bij' (fun j _ => j 0) (fun e _ => ix2 e q) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e q)).mpr ⟨(Finset.mem_filter.mp he).2, rfl⟩⟩
  · intro j hj
    exact back j (Finset.mem_filter.mp hj).2
  · intro e _
    rfl
  · intro j hj
    exact congrArg upd (back j (Finset.mem_filter.mp hj).2).symm

end Cert.LibRows

end
-- ==== Proof.KernelHost.lean ====
/-
  The two arrays the kernel's input windows stage, read at an index, and the precondition read at an edge.

  Before the call the program cuts the edge list into its two rows. Row 0, reshaped to one row of 1 600 000 words, is the
  first staged array: at (0, e) it holds edge e's source word. Row 1 gives the index column: each word d, shifted up by
  100 000 when negative. The second staged array is the table gathered along that column, row by row, a row whose index
  falls outside 0 … 99 999 replaced by a fixed pattern, then a change of float format (the identity on extended reals).
  The precondition says −100 000 ≤ d < 100 000 of every row-1 word, so every shifted word lies in the table, the bounds
  test passes at every row, and the staged array is the table's row (shifted word, clamped) at every edge: the carried rows.
-/
import proofs.«409495_j18966575579290_1_alg».proof.Proof.KI.Runs
import proofs.«409495_j18966575579290_1_alg».proof.Proof.Gen.Pre_finite_inputs
import proofs.«409495_j18966575579290_1_alg».proof.Defs
import proofs.«409495_j18966575579290_1_alg».proof.Proof.Spec
import proofs.«409495_j18966575579290_1_alg».proof.Proof.LibRows
import Idealize.ShloMosaic.Lib.ReduceAll
import Idealize.ShloMosaic.Lib.StableHlo.Run
import Idealize.ShloMosaic.Lib.Pipeline.Value

noncomputable section

namespace Cert.SegNorm.Host

open Cert.KernelIdeal Cert.KernelIdeal.Gen Cert.SegNorm Idealize.ShloMosaic Idealize.ShloMosaic.TcCoe
  Idealize.ShloMosaic.ValueIdx Idealize.SL.Sem

/-- One row of the edge list, the flat list of edges, the index column, the scalar shape, the one-word shapes. -/
abbrev SRow : Shape := ⟨2, ![1, 1600000]⟩
abbrev SFlat : Shape := ⟨1, ![1600000]⟩
abbrev SCol : Shape := ⟨2, ![1600000, 1]⟩
abbrev SSc : Shape := ⟨0, ![]⟩
abbrev SOne : Shape := ⟨1, ![1]⟩
abbrev SOneOne : Shape := ⟨2, ![1, 1]⟩

instance : Subsingleton SSc.Idx := ⟨fun a b => funext fun d => d.elim0⟩

/-! ## Rows of the edge list -/

/-- Row 0 of the edge list, flattened, holds edge e's source word at e. -/
theorem flat_row0 (mask : IVec SMask 32) (h1 : SMask.Slices ![0, 0] SRow) (h2 : SRow.ShapeCasts SFlat) (e : Fin 1600000) :
    shapeCast SFlat (extractStridedSlice SRow ![0, 0] mask h1) h2 (ix1 e) = srcWord mask e := by
  refine (shapeCast_apply _ h2 (ix1 e) (ix2 (0 : Fin 1) e) ?_).trans ?_
  · rw [Shape.rowMajor_val_two, Shape.rowMajor_val_one]
    show (0 : ℕ) * 1600000 + e.val = e.val
    omega
  · refine extractStridedSlice_apply _ mask h1 _ (ix2 (0 : Fin 2) e) fun a => ?_
    match a with
    | ⟨0, _⟩ => rfl
    | ⟨1, _⟩ => show e.val = 0 + e.val; omega

/-- Row 1 of the edge list, flattened, holds edge e's carried-row word at e. -/
theorem flat_row1 (mask : IVec SMask 32) (h1 : SMask.Slices ![1, 0] SRow) (h2 : SRow.ShapeCasts SFlat) (e : Fin 1600000) :
    shapeCast SFlat (extractStridedSlice SRow ![1, 0] mask h1) h2 (ix1 e) = dstWord mask e := by
  refine (shapeCast_apply _ h2 (ix1 e) (ix2 (0 : Fin 1) e) ?_).trans ?_
  · rw [Shape.rowMajor_val_two, Shape.rowMajor_val_one]
    show (0 : ℕ) * 1600000 + e.val = e.val
    omega
  · refine extractStridedSlice_apply _ mask h1 _ (ix2 (1 : Fin 2) e) fun a => ?_
    match a with
    | ⟨0, _⟩ => rfl
    | ⟨1, _⟩ => show e.val = 0 + e.val; omega

/-- Row 0 flattened and folded back to one row is row 0: at (0, e) the source word of e. -/
theorem row0_back (mask : IVec SMask 32) (h1 : SMask.Slices ![0, 0] SRow) (h2 : SRow.ShapeCasts SFlat)
    (h3 : SFlat.ShapeCasts SRow) (e : Fin 1600000) :
    shapeCast SRow (shapeCast SFlat (extractStridedSlice SRow ![0, 0] mask h1) h2) h3 (ix2 (0 : Fin 1) e) = srcWord mask e := by
  rw [shapeCast_shapeCast]
  refine extractStridedSlice_apply _ mask h1 _ (ix2 (0 : Fin 2) e) fun a => ?_
  match a with
  | ⟨0, _⟩ => rfl
  | ⟨1, _⟩ => show e.val = 0 + e.val; omega

/-! ## The precondition, read at an edge -/

/-- The word of −100 000. -/
theorem toInt_neg_bound : (4294867296#32 : BitVec 32).toInt = -100000 := by decide

/-- The precondition's second conjunct says of every edge that its carried-row word d has −100 000 ≤ d < 100 000. -/
theorem pre_range [Cert.Pre_finite_inputs.Facts] (emb : FVec Ideal Cert.Pre_finite_inputs.S100000x128 .f32)
    (mask : IVec Cert.Pre_finite_inputs.S2x1600000 32)
    (h : Cert.Pre_finite_inputs.fn (F := Ideal) emb mask = fun _ => 1#1) (e : Fin 1600000) :
    (-100000 : ℤ) ≤ (dstWord mask e).toInt ∧ (dstWord mask e).toInt < 100000 := by
  have h0 := congrFun h ix0
  dsimp only [Cert.Pre_finite_inputs.fn] at h0
  obtain ⟨-, h2⟩ := IntOp.andi_eq_one.1 h0
  have h3 := Host.reduce_andi_all _ _ _ _ _ h2 (ix1 e)
  obtain ⟨ha, hb⟩ := IntOp.andi_eq_one.1 h3
  have e5 := flat_row1 mask Cert.Pre_finite_inputs.Facts.slices_S2x1600000_S1x1600000_1_0
    Cert.Pre_finite_inputs.Facts.shapeCasts_S1x1600000_S1600000 e
  have ha' : (4294867296#32 : BitVec 32).toInt
      ≤ (shapeCast SFlat (extractStridedSlice SRow ![1, 0] mask Cert.Pre_finite_inputs.Facts.slices_S2x1600000_S1x1600000_1_0)
          Cert.Pre_finite_inputs.Facts.shapeCasts_S1x1600000_S1600000 (ix1 e)).toInt := IntOp.cmpi_sge.1 ha
  have hb' : (shapeCast SFlat (extractStridedSlice SRow ![1, 0] mask Cert.Pre_finite_inputs.Facts.slices_S2x1600000_S1x1600000_1_0)
          Cert.Pre_finite_inputs.Facts.shapeCasts_S1x1600000_S1600000 (ix1 e)).toInt
      < (100000#32 : BitVec 32).toInt := IntOp.cmpi_slt.1 hb
  rw [e5] at ha' hb'
  rw [toInt_neg_bound] at ha'
  have h5 : (100000#32 : BitVec 32).toInt = 100000 := by decide
  rw [h5] at hb'
  exact ⟨ha', hb'⟩

/-! ## A conjunction of ones -/

/-- A left fold by the one-bit conjunction, from 1 over ones, is 1. -/
theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_ones f hf l

/-- A conjunction-reduce from 1 of an array of ones is 1 everywhere. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x hx _

/-! ## The index column, the in-bounds bit, the taken row -/

/-- The table row a word names: read signed, clamped into the table. -/
def rowAt (w : BitVec 32) : Fin 100000 := ⟨min w.toInt.toNat (100000 - 1), by omega⟩

/-- The row edge e carries is the row its shifted word names. -/
theorem dstRow_eq (mask : IVec SMask 32) (e : Fin 1600000) : dstRow mask e = rowAt (wrapWord (dstWord mask e)) := rfl

/-- The index column at row e: the flat list's entry e, a negative word shifted up by the table's height. -/
theorem idx_col_apply (d : IVec SFlat 32) (hb0 : SSc.BroadcastsInDim SFlat (![] : Fin 0 → Fin SFlat.rank))
    (hbc : SFlat.BroadcastsInDim SCol (![0] : Fin 1 → Fin SCol.rank)) (i : SCol.Idx) :
    broadcastInDim SCol ![0] hbc
        (select (cmpi .slt d (broadcastInDim SFlat ![] hb0 (constantI SSc 32 0#32)))
          (addi d (broadcastInDim SFlat ![] hb0 (constantI SSc 32 100000#32))) d) i
      = wrapWord (d (ix1 (i 0))) := by
  refine (broadcastInDim_apply ![0] hbc _ i (ix1 (i 0)) fun a => ?_).trans rfl
  match a with
  | ⟨0, _⟩ =>
    show (i 0).val = if (1600000 : ℕ) = 1 then 0 else (i 0).val
    rw [if_neg (by decide)]

/-- An index column whose every word lies in the table passes the bounds test at every row: the conjunction over the
    unit axis of (0 ≤ word) and (word ≤ 99 999) is 1. -/
theorem inb_bit (col : IVec SCol 32) (hcol : ∀ i, 0 ≤ (col i).toInt ∧ (col i).toInt ≤ 99999)
    (hz : SSc.BroadcastsInDim SCol (![] : Fin 0 → Fin SCol.rank))
    (h1 : SOne.BroadcastsInDim SOneOne (![1] : Fin 1 → Fin SOneOne.rank))
    (h2 : SOneOne.BroadcastsInDim SCol (![0, 1] : Fin 2 → Fin SCol.rank))
    (hr : SCol.ReducesTo [1] SFlat) (hu : 0 < SSc.numel) (j : SFlat.Idx) :
    Host.reduce IntOp.andi
        (andi (cmpi .sge col (broadcastInDim SCol ![] hz (constantI SSc 32 0#32)))
          (cmpi .sle col (broadcastInDim SCol ![0, 1] h2 (broadcastInDim SOneOne ![1] h1 (constantI SOne 32 99999#32)))))
        (constantI SSc 1 1#1) hr hu j = 1#1 := by
  refine reduce_andi_ones _ _ hr hu (fun _ => rfl) (fun i => ?_) j
  show IntOp.andi (IntOp.cmpi .sge (col i) 0#32) (IntOp.cmpi .sle (col i) 99999#32) = 1#1
  refine IntOp.andi_eq_one.2 ⟨IntOp.cmpi_sge.2 ?_, IntOp.cmpi_sle.2 ?_⟩
  · have h0 : (0#32 : BitVec 32).toInt = 0 := by decide
    rw [h0]; exact (hcol i).1
  · have h9 : (99999#32 : BitVec 32).toInt = 99999 := by decide
    rw [h9]; exact (hcol i).2

/-- Where the bounds test passes everywhere, the guarded row gather (rows failing the test replaced by a fixed
    pattern), after a change of float format, reads at (e, q) the table at the row the index column's word names. -/
theorem take_apply (emb : STable.Idx → EReal) (col : IVec SCol 32) (bit : IVec SFlat 1) (hbit : ∀ j, bit j = 1#1)
    (gd : GatherDims STable SCol SCarried) (hoff : gd.offsetDims = [1]) (hcoll : gd.collapsedSliceDims = [0])
    (hob : gd.operandBatchingDims = []) (hsim : gd.startIndexMap = [0]) (hivd : gd.indexVectorDim = 1)
    (hb : SFlat.BroadcastsInDim SCarried (![0] : Fin 1 → Fin SCarried.rank))
    (hn : SSc.BroadcastsInDim SCarried (![] : Fin 0 → Fin SCarried.rank)) (hlt : FTy.bits .bf16 < FTy.bits .f32)
    (e : Fin 1600000) (q : Fin 128) :
    (truncf .bf16 (select (broadcastInDim SCarried ![0] hb bit) (Host.gather gd emb col : FVec Ideal SCarried .f32)
        (broadcastInDim SCarried ![] hn (constant (F := Ideal) SSc .f32 0x7FC00000#32))) hlt : FVec Ideal SCarried .bf16) (ix2 e q)
      = emb (ix2 (rowAt (col (ix2 e (0 : Fin 1)))) q) := by
  have hm : broadcastInDim SCarried ![0] hb bit (ix2 e q) = bit (ix1 e) := by
    refine broadcastInDim_apply ![0] hb bit (ix2 e q) (ix1 e) fun a => ?_
    match a with
    | ⟨0, _⟩ =>
      show e.val = if (1600000 : ℕ) = 1 then 0 else e.val
      rw [if_neg (by decide)]
  show Scalar.select (broadcastInDim SCarried ![0] hb bit (ix2 e q)) (Host.gather gd emb col (ix2 e q)) _ = _
  rw [hm, hbit, select_one]
  exact Cert.LibRows.gather_rows_apply gd hoff hcoll hob hsim hivd emb col e q (by decide)

/-! ## Contents at a buffer's own type -/

/-- Contents carried to a buffer's own type and back are unchanged. -/
theorem ofBuf_toBuf {sig : RefSig} {T : BufTy} {Val : EltTy → Type} (x : StableHlo.TRef sig T) (v : T.Contents Val) :
    x.ofBuf (x.toBuf v) = v := by
  simp only [StableHlo.TRef.ofBuf, StableHlo.TRef.toBuf, cast_cast, cast_eq]

/-! ## The staged arrays -/

variable (m : (ℓ : Loc nD τ sig) → Buf (Elt Ideal) ℓ)

/-- What the precondition says of the edge list: every carried-row word lies in −100 000 ≤ d < 100 000. -/
theorem dst_range (hpre : Cert.Pre_KernelIdeal m) (c : Dev nD) (e : Fin 1600000) :
    (-100000 : ℤ) ≤ (dstWord (m ((c.tc : Thread nD τ).loc main_arg1)) e).toInt
      ∧ (dstWord (m ((c.tc : Thread nD τ).loc main_arg1)) e).toInt < 100000 :=
  pre_range _ _ (hpre c) e

/-- Row 1 of the edge list, flattened. -/
abbrev dflat (mask : IVec S2x1600000 32) : IVec S1600000 32 :=
  shapeCast S1600000 (extractStridedSlice S1x1600000 ![1, 0] mask slices_S2x1600000_S1x1600000_1_0) shapeCasts_S1x1600000_S1600000

/-- The index column: each row-1 word, shifted up by the table's height when negative. -/
abbrev idxCol (mask : IVec S2x1600000 32) : IVec S1600000x1 32 :=
  broadcastInDim S1600000x1 ![0] bcast_S1600000_S1600000x1_0
    (select (cmpi .slt (dflat mask) (broadcastInDim S1600000 ![] bcast_S_S1600000 (constantI S_ 32 0#32)))
      (addi (dflat mask) (broadcastInDim S1600000 ![] bcast_S_S1600000 (constantI S_ 32 100000#32))) (dflat mask))

/-- The bounds test, row by row: 0 ≤ word and word ≤ 99 999, conjoined over the unit axis. -/
abbrev inbBit (mask : IVec S2x1600000 32) : IVec S1600000 1 :=
  Host.reduce IntOp.andi
    (andi (cmpi .sge (idxCol mask) (broadcastInDim S1600000x1 ![] bcast_S_S1600000x1 (constantI S_ 32 0#32)))
      (cmpi .sle (idxCol mask) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The guarded row gather along the index column, after the change of float format. -/
abbrev takenRows (emb : FVec Ideal S100000x128 .f32) (mask : IVec S2x1600000 32) : FVec Ideal S1600000x128 .bf16 :=
  truncf .bf16
    (select (broadcastInDim S1600000x128 ![0] bcast_S1600000_S1600000x128_0 (inbBit mask))
      (Host.gather gather_S100000x128_S1600000x1_S1600000x128_1_0_n_n_0_1_1128 emb (idxCol mask))
      (broadcastInDim S1600000x128 ![] bcast_S_S1600000x128 (constant (F := Ideal) S_ .f32 0x7FC00000#32)))
    bitsLt_bf16_f32

/-- The index column's word at row e is edge e's shifted carried-row word. -/
theorem idxCol_apply (mask : IVec S2x1600000 32) (i : S1600000x1.Idx) :
    idxCol mask i = wrapWord (dstWord mask (i 0)) :=
  (idx_col_apply (dflat mask) _ _ i).trans (congrArg wrapWord (flat_row1 mask _ _ (i 0)))

/-- Under the range of the row-1 words, the guarded gather is the carried rows. -/
theorem takenRows_apply (emb : FVec Ideal S100000x128 .f32) (mask : IVec S2x1600000 32)
    (hr : ∀ e : Fin 1600000, (-100000 : ℤ) ≤ (dstWord mask e).toInt ∧ (dstWord mask e).toInt < 100000)
    (e : Fin 1600000) (q : Fin 128) : takenRows emb mask (ix2 e q) = carried emb mask (ix2 e q) := by
  have hcol : ∀ i, 0 ≤ (idxCol mask i).toInt ∧ (idxCol mask i).toInt ≤ 99999 := fun i => by
    rw [idxCol_apply]
    exact wrapWord_inb _ (hr (i 0)).1 (hr (i 0)).2
  have hbit : ∀ j, inbBit mask j = 1#1 := fun j => inb_bit (idxCol mask) hcol _ _ _ _ _ j
  refine (take_apply emb (idxCol mask) (inbBit mask) hbit
    gather_S100000x128_S1600000x1_S1600000x128_1_0_n_n_0_1_1128 rfl rfl rfl rfl rfl _ _ _ e q).trans ?_
  rw [idxCol_apply]
  rfl

/-- The first staged array is row 0 of the edge list, flattened and folded back to one row. -/
theorem V_src_term (c : Dev nD) :
    (V m c main_v2 : S1x1600000.Idx → BitVec 32)
      = shapeCast S1x1600000
          (shapeCast S1600000
            (extractStridedSlice S1x1600000 ![0, 0] (m ((c.tc : Thread nD τ).loc main_arg1) : IVec S2x1600000 32)
              slices_S2x1600000_S1x1600000_0_0)
            shapeCasts_S1x1600000_S1600000)
          shapeCasts_S1600000_S1x1600000 := by
  dsimp only [Gen.V]
  simp only [Gen.hostOps0, Gen.hostOps0_1, Gen.hostOps0_2, List.flatten_cons, List.flatten_nil, List.append_nil,
    List.cons_append, List.nil_append]
  after_results
  rfl

/-- The first staged array at (0, e): edge e's source word. -/
theorem V_src (c : Dev nD) (e : Fin 1600000) :
    (V m c main_v2 : S1x1600000.Idx → BitVec 32) (ix2 (0 : Fin 1) e)
      = srcWord (m ((c.tc : Thread nD τ).loc main_arg1)) e := by
  rw [V_src_term m c]
  exact row0_back _ _ _ _ e

/-- The second staged array is the guarded row gather of the table along the index column. -/
theorem V_carried_term (c : Dev nD) :
    (V m c main_v6 : S1600000x128.Idx → EReal)
      = takenRows (m ((c.tc : Thread nD τ).loc main_arg0)) (m ((c.tc : Thread nD τ).loc main_arg1)) := by
  dsimp only [Gen.V]
  simp only [Gen.hostOps0, Gen.hostOps0_1, Gen.hostOps0_2, List.flatten_cons, List.flatten_nil, List.append_nil,
    List.cons_append, List.nil_append]
  after_results_simp
  have h0 : (StableHlo.TRef.of (T := ⟨S100000x128, .f32⟩) main_arg0).ofBuf (Val := Elt Ideal) (m (c, Proc.devRef .tc main_arg0))
      = m ((c.tc : Thread nD τ).loc main_arg0) := rfl
  have h4 : (StableHlo.TRef.of (T := ⟨S1600000, .i32⟩) main_v4).ofBuf (Val := Elt Ideal)
        (fun i => shapeCast main_v4.ty.shape
          (extractStridedSlice S1x1600000 ![1, 0] (m (c, Proc.devRef .tc main_arg1)) slices_S2x1600000_S1x1600000_1_0)
          shapeCasts_S1x1600000_S1600000 i)
      = dflat (m ((c.tc : Thread nD τ).loc main_arg1)) := rfl
  have h5 : ∀ v : FVec Ideal S1600000x128 .f32,
      (StableHlo.TRef.of (T := ⟨S1600000x128, .f32⟩) main_v5).toBuf (Val := Elt Ideal) v = v := fun _ => rfl
  simp only [ofBuf_toBuf, h0, h4, h5]

/-- The second staged array at (e, q): the carried rows. -/
theorem V_carried (hpre : Cert.Pre_KernelIdeal m) (c : Dev nD) (e : Fin 1600000) (q : Fin 128) :
    (V m c main_v6 : S1600000x128.Idx → EReal) (ix2 e q)
      = carried (m ((c.tc : Thread nD τ).loc main_arg0)) (m ((c.tc : Thread nD τ).loc main_arg1)) (ix2 e q) := by
  rw [V_carried_term m c]
  exact takenRows_apply _ _ (fun e' => dst_range m hpre c e') e q

end Cert.SegNorm.Host

end
-- ==== Proof.KernelAcc.lean ====
/-
  What the kernel's two carried sums hold after each grid point, and what the last point of a row tile stores to the
  output block.

  Grid point t works on row tile t / 250 and edge chunk t % 250. The window over the edge sources hands it the chunk's
  6 400 source words, the window over the carried rows the chunk's 6 400 rows. The first point of a row tile stores
  zeros plus its addend, every later point adds its addend to what the point before left: after point t the carried
  sums hold the addends of points 250·(t / 250) … t, added up. At the last point of the tile that is all 250 addends,
  the node's neighbour sum and edge count, and the output block receives their finish: the node's result row.
-/
import proofs.«409495_j18966575579290_1_alg».proof.Proof.KI.Value
import proofs.«409495_j18966575579290_1_alg».proof.Proof.SumSpec
import proofs.«409495_j18966575579290_1_alg».proof.Proof.KernelPieces
import proofs.«409495_j18966575579290_1_alg».proof.Proof.KernelPay
import proofs.«409495_j18966575579290_1_alg».proof.Proof.KernelHost
import Idealize.ShloMosaic.Lib.Pipeline.Value

noncomputable section

open scoped BigOperators

namespace Cert.SegNorm.Acc

open Cert.KernelIdeal Cert.KernelIdeal.Gen Cert.KernelIdeal.Value Cert.SegNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The edge list and the feature table as launched, and the carried rows. -/
abbrev maskOf (c : Dev nD) : IVec SMask 32 := m ((c : Thread nD τ).loc main_arg1)
abbrev embOf (c : Dev nD) : STable.Idx → EReal := m ((c : Thread nD τ).loc main_arg0)
abbrev rowsOf (c : Dev nD) : SCarried.Idx → EReal := carried (embOf m c) (maskOf m c)

/-- The two input blocks of a point, at their literal types. -/
abbrev srcBlk (c : Dev nD) (t : Fin cfg0.N) : Vec Ideal S1x6400 .i32 := iblk m c 0 t
abbrev rowBlk (c : Dev nD) (t : Fin cfg0.N) : Vec Ideal S6400x128 .bf16 := iblk m c 1 t

/-! ## A point's coordinates and its blocks -/

theorem N_eq : cfg0.N = 49000 := N_0

theorem coord0 (t : Fin cfg0.N) : (grid0.coords t 0).val = t.val / 250 := by
  have ht : t.val < 49000 := lt_of_lt_of_eq t.isLt N_eq
  show t.val / grid0.stride 0 % 196 = t.val / 250
  rw [show grid0.stride 0 = 250 from by decide]
  omega

theorem coord1 (t : Fin cfg0.N) : (grid0.coords t 1).val = t.val % 250 := by
  show t.val / grid0.stride 1 % 250 = t.val % 250
  rw [show grid0.stride 1 = 1 from by decide, Nat.div_one]

/-- The source window's block at point t, read off contents G of its array: word j is G at (0, 6400·(t % 250) + j). -/
theorem read_blk0 (G : S1x1600000.Idx → BitVec 32) (t : Fin cfg0.N) (j : Fin 6400) :
    (((cfg0.win 0).blk t).view.read (Elt Ideal) G (ix2 (0 : Fin 1) j) : BitVec 32) = G (ix2 (0 : Fin 1) (edgeAt t.val j)) := by
  have hj := j.isLt
  rw [View.read_apply]
  show G _ = G _
  congr 1
  funext a
  apply Fin.ext
  match a with
  | ⟨0, _⟩ => rfl
  | ⟨1, _⟩ =>
    show win0_0.index t 1 * 6400 + 1 * j.val = 6400 * (t.val % 250) + j.val
    have hi : win0_0.index t 1 = t.val % 250 := by
      show (BitVec.ofNat 32 (grid0.coords t 1).val).toNat = _
      rw [BitVec.toNat_ofNat, coord1]
      omega
    rw [hi]; omega

/-- The carried-row window's block at point t, read off contents G of its array: row j is G's row 6400·(t % 250) + j. -/
theorem read_blk1 (G : S1600000x128.Idx → EReal) (t : Fin cfg0.N) (j : Fin 6400) (q : Fin 128) :
    (((cfg0.win 1).blk t).view.read (Elt Ideal) G (ix2 j q) : EReal) = G (ix2 (edgeAt t.val j) q) := by
  have hj := j.isLt
  rw [View.read_apply]
  show G _ = G _
  congr 1
  funext a
  apply Fin.ext
  match a with
  | ⟨0, _⟩ =>
    show win0_1.index t 0 * 6400 + 1 * j.val = 6400 * (t.val % 250) + j.val
    have hi : win0_1.index t 0 = t.val % 250 := by
      show (BitVec.ofNat 32 (grid0.coords t 1).val).toNat = _
      rw [BitVec.toNat_ofNat, coord1]
      omega
    rw [hi]; omega
  | ⟨1, _⟩ =>
    show win0_1.index t 1 * 128 + 1 * q.val = q.val
    have hi : win0_1.index t 1 = 0 := rfl
    rw [hi]; omega

/-- The source block of point t holds the source words of the point's chunk. -/
theorem srcBlk_apply (c : Dev nD) (t : Fin cfg0.N) (j : Fin 6400) :
    srcBlk m c t (ix2 (0 : Fin 1) j) = srcWord (maskOf m c) (edgeAt t.val j) :=
  (read_blk0 (V m c main_v2) t j).trans (Cert.SegNorm.Host.V_src m c (edgeAt t.val j))

/-- The row block of point t holds the carried rows of the point's chunk. -/
theorem rowBlk_apply (hpre : Cert.Pre_KernelIdeal m) (c : Dev nD) (t : Fin cfg0.N) (j : Fin 6400) (q : Fin 128) :
    rowBlk m c t (ix2 j q) = rowsOf m c (ix2 (edgeAt t.val j) q) :=
  (read_blk1 (V m c main_v6) t j q).trans (Cert.SegNorm.Host.V_carried m hpre c (edgeAt t.val j) q)

/-! ## One point's update of the two sums -/

/-- The carried-row sums after a point, over contents acc before the addition: acc plus the point's addend. -/
theorem pay4_point (hpre : Cert.Pre_KernelIdeal m) (c : Dev nD) (t : Fin cfg0.N) (acc : Vec Ideal S512x128 .f32)
    (p : Fin 512) (q : Fin 128) :
    k0_pay4 (F := Ideal) (grid0.coords t) (srcBlk m c t) (rowBlk m c t) acc (ix2 p q)
      = acc (ix2 p q) + addend0 (maskOf m c) (rowsOf m c) t.val p q := by
  rw [Cert.SegNorm.Pay.pay4_apply, coord0]
  refine congrArg (acc (ix2 p q) + ·) (Finset.sum_congr rfl fun j _ => ?_)
  rw [srcBlk_apply, rowBlk_apply m hpre]
  rfl

/-- The edge counts after a point, over contents acc before the addition: acc plus the point's weights. -/
theorem pay5_point (c : Dev nD) (t : Fin cfg0.N) (acc : Vec Ideal S512x1 .f32) (p : Fin 512) :
    k0_pay5 (F := Ideal) (grid0.coords t) (srcBlk m c t) acc (ix2 p (0 : Fin 1))
      = acc (ix2 p (0 : Fin 1)) + addend1 (maskOf m c) t.val p := by
  rw [Cert.SegNorm.Pay.pay5_apply, coord0]
  refine congrArg (acc (ix2 p (0 : Fin 1)) + ·) (Finset.sum_congr rfl fun j _ => ?_)
  rw [srcBlk_apply]
  rfl

/-! ## The two sums after each point -/

/-- What one point leaves in the carried-row sums over contents acc, whichever case it runs: the first point of a row
    tile stores zeros plus its addend (acc is not read), every other point acc plus its addend. -/
theorem scAt0_0_apply (hpre : Cert.Pre_KernelIdeal m) (c : Dev nD) (n : ℕ) (hb : n < cfg0.N) (acc : Vec Ideal S512x128 .f32)
    (p : Fin 512) (q : Fin 128) :
    scAt0_0 m c n hb acc (ix2 p q)
      = (if n % 250 = 0 then 0 else acc (ix2 p q)) + addend0 (maskOf m c) (rowsOf m c) n p q := by
  have hN : n < 49000 := lt_of_lt_of_eq hb N_eq
  unfold scAt0_0
  by_cases h0 : n % 250 = 0
  · have h1 : ¬n % 250 = 249 := by omega
    rw [dif_pos h0, dif_neg h1, if_pos h0]
    refine (congrFun (Cert.SegNorm.Pieces.sums_A (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _)
      ((hcond0_0 ⟨n, hb⟩).mpr h0) (fun h => h1 ((hcond0_1 ⟨n, hb⟩).mp h)) (srcBlk m c ⟨n, hb⟩) (rowBlk m c ⟨n, hb⟩)) (ix2 p q)).trans ?_
    refine (pay4_point m hpre c ⟨n, hb⟩ (k0_pay1 (F := Ideal)) p q).trans ?_
    rw [Cert.SegNorm.Pay.pay1_apply]
  · rw [dif_neg h0, if_neg h0]
    by_cases h1 : n % 250 = 249
    · rw [dif_pos h1]
      refine (congrFun (Cert.SegNorm.Pieces.sums_C (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _)
        (fun h => h0 ((hcond0_0 ⟨n, hb⟩).mp h)) ((hcond0_1 ⟨n, hb⟩).mpr h1) (srcBlk m c ⟨n, hb⟩) (rowBlk m c ⟨n, hb⟩) acc
        (outsAt0 m c ((⟨n, hb⟩ : Fin cfg0.N).val - 1) (Nat.lt_of_le_of_lt (Nat.sub_le _ _) (⟨n, hb⟩ : Fin cfg0.N).isLt)).2.2) (ix2 p q)).trans ?_
      exact pay4_point m hpre c ⟨n, hb⟩ acc p q
    · rw [dif_neg h1]
      refine (congrFun (Cert.SegNorm.Pieces.sums_B (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _)
        (fun h => h0 ((hcond0_0 ⟨n, hb⟩).mp h)) (fun h => h1 ((hcond0_1 ⟨n, hb⟩).mp h)) (srcBlk m c ⟨n, hb⟩) (rowBlk m c ⟨n, hb⟩) acc
        (outsAt0 m c ((⟨n, hb⟩ : Fin cfg0.N).val - 1) (Nat.lt_of_le_of_lt (Nat.sub_le _ _) (⟨n, hb⟩ : Fin cfg0.N).isLt)).2.2) (ix2 p q)).trans ?_
      exact pay4_point m hpre c ⟨n, hb⟩ acc p q

/-- The same for the edge counts. -/
theorem scAt0_1_apply (c : Dev nD) (n : ℕ) (hb : n < cfg0.N) (acc : Vec Ideal S512x1 .f32) (p : Fin 512) :
    scAt0_1 m c n hb acc (ix2 p (0 : Fin 1))
      = (if n % 250 = 0 then 0 else acc (ix2 p (0 : Fin 1))) + addend1 (maskOf m c) n p := by
  have hN : n < 49000 := lt_of_lt_of_eq hb N_eq
  unfold scAt0_1
  by_cases h0 : n % 250 = 0
  · have h1 : ¬n % 250 = 249 := by omega
    rw [dif_pos h0, dif_neg h1, if_pos h0]
    refine (congrFun (Cert.SegNorm.Pieces.counts_A (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _)
      ((hcond0_0 ⟨n, hb⟩).mpr h0) (fun h => h1 ((hcond0_1 ⟨n, hb⟩).mp h)) (srcBlk m c ⟨n, hb⟩) (rowBlk m c ⟨n, hb⟩)) (ix2 p (0 : Fin 1))).trans ?_
    refine (pay5_point m c ⟨n, hb⟩ (k0_pay2 (F := Ideal)) p).trans ?_
    rw [Cert.SegNorm.Pay.pay2_apply]
  · rw [dif_neg h0, if_neg h0]
    by_cases h1 : n % 250 = 249
    · rw [dif_pos h1]
      refine (congrFun (Cert.SegNorm.Pieces.counts_C (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _)
        (fun h => h0 ((hcond0_0 ⟨n, hb⟩).mp h)) ((hcond0_1 ⟨n, hb⟩).mpr h1) (srcBlk m c ⟨n, hb⟩) (rowBlk m c ⟨n, hb⟩)
        (outsAt0 m c ((⟨n, hb⟩ : Fin cfg0.N).val - 1) (Nat.lt_of_le_of_lt (Nat.sub_le _ _) (⟨n, hb⟩ : Fin cfg0.N).isLt)).2.1 acc) (ix2 p (0 : Fin 1))).trans ?_
      exact pay5_point m c ⟨n, hb⟩ acc p
    · rw [dif_neg h1]
      refine (congrFun (Cert.SegNorm.Pieces.counts_B (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _)
        (fun h => h0 ((hcond0_0 ⟨n, hb⟩).mp h)) (fun h => h1 ((hcond0_1 ⟨n, hb⟩).mp h)) (srcBlk m c ⟨n, hb⟩) (rowBlk m c ⟨n, hb⟩)
        (outsAt0 m c ((⟨n, hb⟩ : Fin cfg0.N).val - 1) (Nat.lt_of_le_of_lt (Nat.sub_le _ _) (⟨n, hb⟩ : Fin cfg0.N).isLt)).2.1 acc) (ix2 p (0 : Fin 1))).trans ?_
      exact pay5_point m c ⟨n, hb⟩ acc p

/-- AFTER POINT t the carried-row sums hold the addends of the points of t's row tile up to t, added up. -/
theorem sums_after (hpre : Cert.Pre_KernelIdeal m) (c : Dev nD) (t : Fin cfg0.N) (p : Fin 512) (q : Fin 128) :
    (outsAt0 m c t.val t.isLt).2.1 (ix2 p q)
      = ∑ s ∈ Finset.range (t.val % 250 + 1), addend0 (maskOf m c) (rowsOf m c) (250 * (t.val / 250) + s) p q := by
  have hN : t.val < 49000 := lt_of_lt_of_eq t.isLt N_eq
  have hmod : (250 * (t.val / 250)) % 250 = 0 := Nat.mul_mod_right _ _
  rw [soutsAt0_0_eq m c t]
  refine (Pipeline.accAt_add_apply (β := EReal)
    (fun n h => scAt0_0 m c n h (VS0_0.read (Elt Ideal) VS0_0.junk)) (scAt0_0 m c) (fun _ => 0)
    (fun n (y : S512x128.Idx) => addend0 (maskOf m c) (rowsOf m c) n (y 0) (y 1)) (250 * (t.val / 250)) 249
    (fun h y => ?_) (fun n h acc y hlt hle => ?_) (t.val % 250) (by omega) _ (ix2 p q)).trans (zero_add _)
  · obtain ⟨p', q', rfl⟩ : ∃ (p' : Fin 512) (q' : Fin 128), y = ix2 p' q' := ⟨y 0, y 1, eq_ix2 y⟩
    rw [scAt0_0_apply m hpre, if_pos hmod]
  · obtain ⟨p', q', rfl⟩ : ∃ (p' : Fin 512) (q' : Fin 128), y = ix2 p' q' := ⟨y 0, y 1, eq_ix2 y⟩
    have hne : ¬n % 250 = 0 := by omega
    rw [scAt0_0_apply m hpre, if_neg hne]

/-- AFTER POINT t the edge counts hold the weights of the points of t's row tile up to t, added up. -/
theorem counts_after (c : Dev nD) (t : Fin cfg0.N) (p : Fin 512) :
    (outsAt0 m c t.val t.isLt).2.2 (ix2 p (0 : Fin 1))
      = ∑ s ∈ Finset.range (t.val % 250 + 1), addend1 (maskOf m c) (250 * (t.val / 250) + s) p := by
  have hN : t.val < 49000 := lt_of_lt_of_eq t.isLt N_eq
  have hmod : (250 * (t.val / 250)) % 250 = 0 := Nat.mul_mod_right _ _
  rw [soutsAt0_1_eq m c t]
  refine (Pipeline.accAt_add_apply (β := EReal)
    (fun n h => scAt0_1 m c n h (VS0_1.read (Elt Ideal) VS0_1.junk)) (scAt0_1 m c) (fun _ => 0)
    (fun n (y : S512x1.Idx) => addend1 (maskOf m c) n (y 0)) (250 * (t.val / 250)) 249
    (fun h y => ?_) (fun n h acc y hlt hle => ?_) (t.val % 250) (by omega) _ (ix2 p (0 : Fin 1))).trans (zero_add _)
  · obtain ⟨p', q', rfl⟩ : ∃ (p' : Fin 512) (q' : Fin 1), y = ix2 p' q' := ⟨y 0, y 1, eq_ix2 y⟩
    obtain rfl : q' = 0 := Subsingleton.elim _ _
    rw [scAt0_1_apply m, if_pos hmod]
  · obtain ⟨p', q', rfl⟩ : ∃ (p' : Fin 512) (q' : Fin 1), y = ix2 p' q' := ⟨y 0, y 1, eq_ix2 y⟩
    obtain rfl : q' = 0 := Subsingleton.elim _ _
    have hne : ¬n % 250 = 0 := by omega
    rw [scAt0_1_apply m, if_neg hne]

/-! ## What the last point of a row tile stores to the output block -/

/-- At the last point of row tile t / 250 the output block's row p receives node 512·(t / 250) + p's result row. -/
theorem out_at_last (hpre : Cert.Pre_KernelIdeal m) (c : Dev nD) (t : Fin cfg0.N) (h1 : t.val % 250 = 249)
    (p : Fin 512) (q : Fin 128) :
    (outsAt0 m c t.val t.isLt).1 (ix2 p q)
      = rowOut (fun k => nbrSum (maskOf m c) (rowsOf m c) (512 * (t.val / 250) + p.val) k)
          (nbrCount (maskOf m c) (512 * (t.val / 250) + p.val)) q := by
  have hN : t.val < 49000 := lt_of_lt_of_eq t.isLt N_eq
  have h0 : ¬t.val % 250 = 0 := by omega
  have hi : t.val / 250 < 196 := by omega
  -- the block is the finish of the two sums this very point completes
  have e := outsAt0_C m c t h0 h1
  have e0 : (outsAt0 m c t.val t.isLt).1 = k0_pay6 (F := Ideal) (outsAt0 m c t.val t.isLt).2.2 (outsAt0 m c t.val t.isLt).2.1 := by
    rw [e]; dsimp only
    rw [Cert.SegNorm.Pieces.out_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2,
      Cert.SegNorm.Pieces.sums_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2,
      Cert.SegNorm.Pieces.counts_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2]
  rw [e0, Cert.SegNorm.Pay.pay6_apply]
  have hs : ∀ k : Fin 128, (outsAt0 m c t.val t.isLt).2.1 (ix2 p k)
      = nbrSum (maskOf m c) (rowsOf m c) (512 * (t.val / 250) + p.val) k := fun k => by
    rw [sums_after m hpre c t p k, h1]
    exact sum_addend0 (maskOf m c) (rowsOf m c) (t.val / 250) hi p k
  have hc : (outsAt0 m c t.val t.isLt).2.2 (ix2 p (0 : Fin 1)) = nbrCount (maskOf m c) (512 * (t.val / 250) + p.val) := by
    rw [counts_after m c t p, h1]
    exact sum_addend1 (maskOf m c) (t.val / 250) hi p
  rw [hc, funext hs]

end Cert.SegNorm.Acc

end
-- ==== Proof.KernelFinal.lean ====
/-
  From the output blocks to the result array, and the kernel's run.

  Only the last point of a row tile writes its output block back: rows 512·i … 512·i + 511 of the result, cut at the
  array's end for the last tile (rows 99 840 … 99 999). What it writes back is, row by row, the node's result row, so
  each write-back is its block of ONE function of the arguments; the 196 blocks cover the array's 100 000 rows, so
  the array ends holding that function.
-/
import proofs.«409495_j18966575579290_1_alg».proof.Proof.KernelAcc

noncomputable section

open scoped BigOperators

namespace Cert.SegNorm.Final

open Cert.KernelIdeal Cert.KernelIdeal.Gen Cert.KernelIdeal.Value Cert.SegNorm Cert.SegNorm.Acc
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result as contents of the result array. -/
abbrev result (c : Dev nD) : Buf (Elt Ideal) ((c : Thread nD τ).loc main_v7) := spec (embOf m c) (maskOf m c)

/-- The output window's block index at point t: row tile t / 250, column tile 0. -/
theorem index2_0 (t : Fin cfg0.N) : win0_2.index t 0 = t.val / 250 := by
  have ht : t.val < 49000 := lt_of_lt_of_eq t.isLt N_eq
  show (BitVec.ofNat 32 (grid0.coords t 0).val).toNat = _
  rw [BitVec.toNat_ofNat, coord0]
  omega
theorem index2_1 (t : Fin cfg0.N) : win0_2.index t 1 = 0 := rfl

/-- The rows of the block that lie inside the array: all 512, but for the last row tile the 160 up to the array's end;
    and all 128 columns. -/
theorem xsize2_0 (t : Fin cfg0.N) : win0_2.xsize (grid0.coords t) 0
    = if (t.val / 250 + 1) * 512 ≤ 100000 then 512 else 100000 - t.val / 250 * 512 := by
  have ht : t.val < 49000 := lt_of_lt_of_eq t.isLt N_eq
  show (Pipeline.Clip.of (BitVec.ofNat 32 (grid0.coords t 0).val).toNat 512 100000).extent 512 = _
  rw [BitVec.toNat_ofNat, coord0, Nat.mod_eq_of_lt (by omega)]
  unfold Pipeline.Clip.of
  split <;> rfl
theorem xsize2_1 (t : Fin cfg0.N) : win0_2.xsize (grid0.coords t) 1 = 128 := rfl

/-- A row of the block at point t that lies inside the array is row 512·(t / 250) + y₀ of the array. -/
theorem row_lt (t : Fin cfg0.N) (y0 : ℕ) (hy : y0 < win0_2.xsize (grid0.coords t) 0) : 512 * (t.val / 250) + y0 < 100000 := by
  have ht : t.val < 49000 := lt_of_lt_of_eq t.isLt N_eq
  rw [xsize2_0] at hy
  split at hy <;> omega

/-- The output window's block at point t, read off contents G of the result array: element (y₀, y₁) is G at
    row 512·(t / 250) + y₀, column y₁. -/
theorem read_blk2 (G : S100000x128.Idx → EReal) (t : Fin cfg0.N) (y : ((cfg0.win 2).xblock (grid0.coords t)).Idx) :
    (((cfg0.win 2).blk t).view.read (Elt Ideal) G y : EReal)
      = G (ix2 (⟨512 * (t.val / 250) + (y 0).val, row_lt t _ (y 0).isLt⟩ : Fin 100000)
          (⟨(y 1).val, Nat.lt_of_lt_of_le (y 1).isLt (win0_2.xsize_le (grid0.coords t) 1)⟩ : Fin 128)) := by
  rw [View.read_apply]
  show G _ = G _
  congr 1
  funext a
  apply Fin.ext
  match a with
  | ⟨0, _⟩ =>
    show win0_2.index t 0 * 512 + 1 * (y 0).val = 512 * (t.val / 250) + (y 0).val
    rw [index2_0]; omega
  | ⟨1, _⟩ =>
    show win0_2.index t 1 * 128 + 1 * (y 1).val = (y 1).val
    rw [index2_1]; omega

/-- WHAT A WRITE-BACK WRITES is its block of the result. -/
theorem flushed_eq (hpre : Cert.Pre_KernelIdeal m) (c : Dev nD) (t : Fin cfg0.N) (hf : (cfg0.win 2).flush t = true) :
    (dats m 0 c).flushed 2 t = ((cfg0.win 2).blk t).view.read (Elt Ideal) (result m c) := by
  have h1 : t.val % 250 = 249 := (flush0_2 t).mp hf
  funext y
  have hy0 : (y 0).val < 512 := Nat.lt_of_lt_of_le (y 0).isLt (win0_2.xsize_le (grid0.coords t) 0)
  have hy1 : (y 1).val < 128 := Nat.lt_of_lt_of_le (y 1).isLt (win0_2.xsize_le (grid0.coords t) 1)
  have hx : win0_2.xinj (grid0.coords t) y = ix2 (⟨(y 0).val, hy0⟩ : Fin 512) (⟨(y 1).val, hy1⟩ : Fin 128) :=
    funext fun a => by match a with | ⟨0, _⟩ => rfl | ⟨1, _⟩ => rfl
  refine Eq.trans ?_ (read_blk2 (result m c) t y).symm
  rw [flushed2]
  show (outsAt0 m c t.val t.isLt).1 (win0_2.xinj (grid0.coords t) y) = _
  rw [hx, out_at_last m hpre c t h1]
  rfl

/-- The row tile of a row. -/
theorem flush_last (i : ℕ) (hi : i < 196) : (250 * i + 249) < cfg0.N := by rw [N_eq]; omega

/-- THE BLOCKS COVER THE ARRAY: row r lies in the block the last point of row tile r / 512 writes back. -/
theorem cover (i : S100000x128.Idx) : ∃ t : Fin cfg0.N, (cfg0.win 2).flush t = true ∧ i ∈ ((cfg0.win 2).blk t).view.set := by
  have h0 : (i 0 : ℕ) < 100000 := (i 0).isLt
  have h1 : (i 1 : ℕ) < 128 := (i 1).isLt
  have hi : (i 0 : ℕ) / 512 < 196 := by omega
  let t : Fin cfg0.N := ⟨250 * ((i 0 : ℕ) / 512) + 249, flush_last _ hi⟩
  have htv : t.val = 250 * ((i 0 : ℕ) / 512) + 249 := rfl
  have hdiv : t.val / 250 = (i 0 : ℕ) / 512 := by rw [htv]; omega
  refine ⟨t, (flush0_2 t).mpr (by rw [htv]; omega), ?_⟩
  show i ∈ ((View.whole main_v7).slice (win0_2.rect t)).set
  rw [View.set_slice_whole, Rect.mem_set_unit]
  intro a
  match a with
  | ⟨0, _⟩ =>
    show win0_2.index t 0 * 512 ≤ (i 0 : ℕ) ∧ (i 0 : ℕ) < win0_2.index t 0 * 512 + win0_2.xsize (grid0.coords t) 0
    rw [index2_0, xsize2_0, hdiv]
    split <;> omega
  | ⟨1, _⟩ =>
    show win0_2.index t 1 * 128 ≤ (i 1 : ℕ) ∧ (i 1 : ℕ) < win0_2.index t 1 * 128 + win0_2.xsize (grid0.coords t) 1
    rw [index2_1, xsize2_1]; omega

/-- So the result array ends holding the result. -/
theorem final (hpre : Cert.Pre_KernelIdeal m) (c : Dev nD) : (dats m 0 c).arrAt 2 cfg0.N = result m c :=
  (dats m 0 c).arrAt_eq_of_cover 2 (result m c) (flushed_eq m hpre c) cover

/-- The kernel's run, read: the result array at the result, the arguments unchanged. -/
theorem run (hpre : Cert.Pre_KernelIdeal m) : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hpre c), (h c).2⟩) (run_blocks m ρ)

end Cert.SegNorm.Final

end
-- ==== Proof.LibSegCount.lean ====
/-
  A host operation read at an element, for any extents: a SCATTER-ADD of scalars onto a rank-1 operand
  (`operand.at[idx].add(updates)` with one update per index word — a segment count when the updates are ones, a segment
  sum of scalars in general). Element `n` of the result is the operand's plus the sum of the updates `e` whose index
  word, read signed and not clamped, is `n`; an update whose word names no element of the operand contributes nothing.
-/
import Idealize.ShloMosaic.Lib.ValueIdx
import Idealize.ShloMosaic.PureOps.Ideal

noncomputable section

open scoped BigOperators

namespace Cert.LibSegCount

open Idealize.ShloMosaic Idealize.ShloMosaic.ValueIdx

/-- The scatter-indices index update `e` reads, whatever the component: row `e` of the index column (the updates' one
    axis is a scatter axis, which reads the scatter indices' axis 0; the index vector's axis holds the component, and
    an index has one). -/
theorem scatter_siIdx {N E : Nat} (d : ScatterDims ⟨1, ![N]⟩ ⟨2, ![E, 1]⟩ ⟨1, ![E]⟩)
    (huw : d.updateWindowDims = []) (hsd : d.scatterDimsToOperandDims = [0]) (hivd : d.indexVectorDim = 1)
    (e : Fin E) (c : Fin d.scatterDimsToOperandDims.length) :
    d.siIdx (ix1 e) c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

/-- The window of update `e` starts at its index word, read signed and not clamped. -/
theorem scatter_start {N E w : Nat} (d : ScatterDims ⟨1, ![N]⟩ ⟨2, ![E, 1]⟩ ⟨1, ![E]⟩)
    (huw : d.updateWindowDims = []) (hsd : d.scatterDimsToOperandDims = [0]) (hivd : d.indexVectorDim = 1)
    (idx : IVec ⟨2, ![E, 1]⟩ w) (e : Fin E) :
    d.start (ix1 e) idx (0 : Fin 1) = (idx (ix2 e (0 : Fin 1))).toInt := by
  have h0 : (0 : Fin 1) ∈ d.scatterDimsToOperandDims := by rw [hsd]; exact List.mem_singleton.mpr rfl
  unfold ScatterDims.start
  rw [dif_pos h0, scatter_siIdx d huw hsd hivd]

/-- The operand's one axis is the inserted axis: no window coordinate there. -/
theorem scatter_window {N E : Nat} (d : ScatterDims ⟨1, ![N]⟩ ⟨2, ![E, 1]⟩ ⟨1, ![E]⟩)
    (hiw : d.insertedWindowDims = [0]) (j : (⟨1, ![E]⟩ : Shape).Idx) :
    d.window j (0 : Fin 1) = 0 := by
  have h0 : (0 : Fin 1) ∉ d.sKept := by
    simp [ScatterDims.sKept, Shape.kept, List.mem_filter, hiw]
  unfold ScatterDims.window
  rw [dif_neg h0]

/-- WHERE AN UPDATE LANDS: update `e` lands at element `n` exactly when its index word, read signed, is `n`. The
    landing coordinate is the index word (start) plus 0 (no window coordinate), in range exactly when it is some `n`
    below `N`. -/
theorem scatter_resultIdx_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e (0 : Fin 1))).toInt = (n.val : ℤ) := by
  have hs0 := scatter_start d huw hsd hivd idx e
  have hw0 := scatter_window d hiw (ix1 e)
  have hN : (⟨1, ![N]⟩ : Shape).size (0 : Fin 1) = N := rfl
  have hn := n.isLt
  unfold ScatterDims.resultIdx?
  constructor
  · intro h
    split at h
    · next hin =>
      have hf := Option.some.inj h
      have c0 : (d.start (ix1 e) idx 0 + d.window (ix1 e) 0).toNat = n.val :=
        congrArg (fun f => (f (0 : Fin 1)).val) hf
      have b0 := hin 0
      rw [hs0, hw0] at c0 b0
      omega
    · exact absurd h (by simp)
  · intro hi
    have p0 : 0 ≤ d.start (ix1 e) idx 0 + d.window (ix1 e) 0
        ∧ d.start (ix1 e) idx 0 + d.window (ix1 e) 0 < (⟨1, ![N]⟩ : Shape).size (0 : Fin 1) := by
      rw [hs0, hw0, hi, hN]; omega
    rw [dif_pos (Fin.forall_fin_one.mpr p0)]
    congr 1
    funext a
    apply Fin.ext
    match a with
    | ⟨0, _⟩ =>
      show (d.start (ix1 e) idx 0 + d.window (ix1 e) 0).toNat = n.val
      rw [hs0, hw0, hi]; omega

/-- THE SCALAR SCATTER-ADD at the ideal instance: the dimension numbers are the printed ones of a segment sum of
    scalars (each hypothesis holds of a printed record by `rfl`). -/
theorem scatterAdd_count_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w)
    (upd : (⟨1, ![E]⟩ : Shape).Idx → EReal) (n : Fin N) :
    (Host.scatterAdd (F := Ideal) (φ := .f32) d x idx upd : (⟨1, ![N]⟩ : Shape).Idx → EReal) (ix1 n)
      = x (ix1 n)
        + ∑ e ∈ Finset.univ.filter (fun e : Fin E => (idx (ix2 e (0 : Fin 1))).toInt = (n.val : ℤ)), upd (ix1 e) := by
  -- every update index is its one coordinate: the landing criterion read at it
  have key : ∀ j : (⟨1, ![E]⟩ : Shape).Idx, d.resultIdx? j idx = some (ix1 n)
      ↔ (idx (ix2 (j 0) (0 : Fin 1))).toInt = (n.val : ℤ) := fun j => by
    have := scatter_resultIdx_iff d huw hiw hsd hivd idx (j 0) n
    rw [congrArg (fun k => d.resultIdx? k idx) (eq_ix1 j)]
    exact this
  show x (ix1 n) + ∑ j ∈ Finset.univ.filter (fun j => d.resultIdx? j idx = some (ix1 n)), upd j = _
  congr 1
  -- so the updates landing at n are the e whose index word reads n: re-index by the coordinate
  refine Finset.sum_bij' (fun j _ => j 0) (fun e _ => ix1 e) ?_ ?_ ?_ ?_ ?_
  · intro j hj
    exact Finset.mem_filter.mpr ⟨Finset.mem_univ _, (key j).mp (Finset.mem_filter.mp hj).2⟩
  · intro e he
    exact Finset.mem_filter.mpr ⟨Finset.mem_univ _, (key (ix1 e)).mpr (Finset.mem_filter.mp he).2⟩
  · intro j _
    exact (eq_ix1 j).symm
  · intro e _
    rfl
  · intro j _
    exact congrArg upd (eq_ix1 j)

end Cert.LibSegCount

end
-- ==== Proof.RefValue.lean ====
/-
  The reference program's result, read stage by stage, is the mean aggregation of neighbour rows followed by row
  normalisation, `Cert.SegNorm.spec`. The two rows of the edge list are read as the source words and the carried-row
  words; the gathered rows are the carried rows; the two scatter-adds onto zeros are each node's sum of carried rows
  and their number; every later stage is pointwise, a broadcast, or one row sum, and together they spell the mean row
  and its division by the larger of its norm and the small constant.
-/
import proofs.«409495_j18966575579290_1_alg».proof.Proof.Gen.ReferenceIdeal.Read
import proofs.«409495_j18966575579290_1_alg».proof.Proof.Spec
import proofs.«409495_j18966575579290_1_alg».proof.Proof.LibRows
import proofs.«409495_j18966575579290_1_alg».proof.Proof.LibSegCount

noncomputable section

open scoped BigOperators

namespace Cert.SegNorm.Ref

open Idealize.ShloMosaic Idealize.ShloMosaic.ValueIdx
open Cert.ReferenceIdeal Cert.ReferenceIdeal.Read

/-- A node's summed rows as one row: entry q is vs n at column q. -/
abbrev vsRow (x0 : FVec Ideal S100000x128 .f32) (x1 : IVec S2x1600000 32) (n : ℕ) : Fin 128 → EReal :=
  fun q => nbrSum x1 (carried x0 x1) n q

/-! ## The two rows of the edge list -/

/-- Row 0 of the edge list, flattened: entry e is edge e's source word. -/
theorem v1_at (x1 : IVec S2x1600000 32) (e : Fin 1600000) :
    val_main_v1 (F := Ideal) x1 (ix1 e) = srcWord x1 e := by
  rw [val_main_v1_apply, val_main_v0_apply]
  unfold srcWord
  refine congrArg x1 (funext fun a => Fin.ext ?_)
  match a with
  | ⟨0, _⟩ => rfl
  | ⟨1, _⟩ => exact Nat.mod_eq_of_lt e.isLt

/-- Row 1 of the edge list, flattened: entry e is edge e's carried-row word. -/
theorem v3_at (x1 : IVec S2x1600000 32) (e : Fin 1600000) :
    val_main_v3 (F := Ideal) x1 (ix1 e) = dstWord x1 e := by
  rw [val_main_v3_apply, val_main_v2_apply]
  unfold dstWord
  refine congrArg x1 (funext fun a => Fin.ext ?_)
  match a with
  | ⟨0, _⟩ => rfl
  | ⟨1, _⟩ => exact Nat.mod_eq_of_lt e.isLt

/-- The carried-row word with a negative word shifted up by the table's height. -/
theorem v8_at (x1 : IVec S2x1600000 32) (e : Fin 1600000) :
    val_main_v8 (F := Ideal) x1 (ix1 e) = wrapWord (dstWord x1 e) := by
  rw [val_main_v8_apply, val_main_v5_apply, val_main_v7_apply, val_main_v4_apply, val_main_v6_apply,
    val_main_c_apply, val_main_c_0_apply, v3_at]
  rfl

/-- The same words as a column. -/
theorem v9_at (x1 : IVec S2x1600000 32) (e : Fin 1600000) :
    val_main_v9 (F := Ideal) x1 (ix2 e (0 : Fin 1)) = wrapWord (dstWord x1 e) := by
  have h : idx_main_v9 (ix2 e (0 : Fin 1)) = ix1 e := by
    funext a; match a with | ⟨0, _⟩ => rfl
  rw [val_main_v9_apply, h, v8_at]

/-- The source words as a column (the row scatter's index column). -/
theorem v12_at (x1 : IVec S2x1600000 32) (e : Fin 1600000) :
    val_main_v12 (F := Ideal) x1 (ix2 e (0 : Fin 1)) = srcWord x1 e := by
  have h : idx_main_v12 (ix2 e (0 : Fin 1)) = ix1 e := by
    funext a; match a with | ⟨0, _⟩ => rfl
  rw [val_main_v12_apply, h, v1_at]

/-- The source words as a column (the count scatter's index column). -/
theorem v16_at (x1 : IVec S2x1600000 32) (e : Fin 1600000) :
    val_main_v16 (F := Ideal) x1 (ix2 e (0 : Fin 1)) = srcWord x1 e := by
  have h : idx_main_v16 (ix2 e (0 : Fin 1)) = ix1 e := by
    funext a; match a with | ⟨0, _⟩ => rfl
  rw [val_main_v16_apply, h, v1_at]

/-! ## The carried rows, their sums and their number -/

/-- The gathered rows are the carried rows: row e is the table's row named by edge e's shifted word, read signed and
    clamped into the table. -/
theorem v10_eq (x0 : FVec Ideal S100000x128 .f32) (x1 : IVec S2x1600000 32) :
    val_main_v10 (F := Ideal) x0 x1 = carried x0 x1 := by
  funext j
  obtain ⟨e, q, rfl⟩ : ∃ (e : Fin 1600000) (q : Fin 128), j = ix2 e q := ⟨j 0, j 1, eq_ix2 j⟩
  unfold val_main_v10
  rw [Cert.LibRows.gather_rows_apply _ rfl rfl rfl rfl rfl x0 _ e q (by decide)]
  show _ = x0 (ix2 (dstRow x1 e) q)
  refine congrArg x0 (congrArg (fun r : Fin 100000 => (ix2 r q : S100000x128.Idx)) (Fin.ext ?_))
  show min (val_main_v9 (F := Ideal) x1 (ix2 e (0 : Fin 1))).toInt.toNat (100000 - 1)
    = min (wrapWord (dstWord x1 e)).toInt.toNat (100000 - 1)
  rw [v9_at]

/-- The row scatter-add onto zeros: element (n, q) is vs n at column q. -/
theorem v13_at (x0 : FVec Ideal S100000x128 .f32) (x1 : IVec S2x1600000 32) (n : Fin 100000) (q : Fin 128) :
    val_main_v13 (F := Ideal) x0 x1 (ix2 n q) = nbrSum x1 (carried x0 x1) n.val q := by
  unfold val_main_v13
  rw [Cert.LibRows.scatterAdd_rows_apply _ rfl rfl rfl rfl, v10_eq,
    val_main_v11_apply, val_main_cst_apply, Ideal.ofBits_def, Ideal.ofBits_zero_f32, zero_add]
  unfold nbrSum edgesOf
  refine Finset.sum_congr (Finset.filter_congr fun e _ => ?_) fun e _ => rfl
  rw [v12_at]

/-- The scatter-add of ones onto zeros: element n is dg n. -/
theorem v17_at (x1 : IVec S2x1600000 32) (n : Fin 100000) :
    val_main_v17 (F := Ideal) x1 (ix1 n) = nbrCount x1 n.val := by
  unfold val_main_v17
  rw [Cert.LibSegCount.scatterAdd_count_apply _ rfl rfl rfl rfl,
    val_main_v15_apply, val_main_cst_2_apply, Ideal.ofBits_def, Ideal.ofBits_zero_f32, zero_add]
  unfold nbrCount edgesOf
  refine Finset.sum_congr (Finset.filter_congr fun e _ => ?_) fun e _ => ?_
  · rw [v16_at]
  · rw [val_main_v14_apply, val_main_cst_1_apply, Ideal.ofBits_def, ofBits_one_f32]

/-! ## The mean row and its norm -/

/-- The divisor, spread over the row: dg n kept at least one. -/
theorem v21_at (x1 : IVec S2x1600000 32) (n : Fin 100000) (q : Fin 128) :
    val_main_v21 (F := Ideal) x1 (ix2 n q) = max (nbrCount x1 n.val) (Ideal.ofBits .f32 0x3F800000#32) := by
  have h21 : idx_main_v21 (ix2 n q) = ix2 n (0 : Fin 1) := by
    funext a; apply Fin.ext; match a with | ⟨0, _⟩ => rfl | ⟨1, _⟩ => rfl
  have h20 : idx_main_v20 (ix2 n (0 : Fin 1)) = ix1 n := by
    funext a; match a with | ⟨0, _⟩ => rfl
  rw [val_main_v21_apply, h21, val_main_v20_apply, h20, val_main_v19_apply, v17_at, val_main_v18_apply,
    val_main_cst_3_apply, Ideal.maximumf_def, Ideal.ofBits_def]

/-- The mean row of node n. -/
theorem v22_at (x0 : FVec Ideal S100000x128 .f32) (x1 : IVec S2x1600000 32) (n : Fin 100000) (q : Fin 128) :
    val_main_v22 (F := Ideal) x0 x1 (ix2 n q) = meanRow (vsRow x0 x1 n.val) (nbrCount x1 n.val) q := by
  rw [val_main_v22_apply, v13_at, v21_at, Ideal.hostDivf_def]
  rfl

/-- The sum of the squares of node n's mean row (the row sum starts from zero). -/
theorem sq_at (x0 : FVec Ideal S100000x128 .f32) (x1 : IVec S2x1600000 32) (n : Fin 100000) :
    val_main_call0_v1 (F := Ideal) x0 x1 (ix1 n)
      = ∑ k : Fin 128, meanRow (vsRow x0 x1 n.val) (nbrCount x1 n.val) k * meanRow (vsRow x0 x1 n.val) (nbrCount x1 n.val) k := by
  rw [val_main_call0_v1_apply, val_main_call0_cst_apply, Ideal.ofBits_def, Ideal.ofBits_zero_f32, zero_add]
  refine Finset.sum_congr rfl fun k _ => ?_
  have hk : idx_main_call0_v1 (ix1 n) k = ix2 n k := by
    funext a; apply Fin.ext; match a with | ⟨0, _⟩ => rfl | ⟨1, _⟩ => rfl
  rw [hk, val_main_call0_v0_apply, v22_at, Ideal.mulf_def]

/-- The divisor of the last step, spread over the row: the larger of the mean row's norm and the small constant. -/
theorem v26_at (x0 : FVec Ideal S100000x128 .f32) (x1 : IVec S2x1600000 32) (n : Fin 100000) (q : Fin 128) :
    val_main_v26 (F := Ideal) x0 x1 (ix2 n q)
      = max (Ideal.sqrt (∑ k : Fin 128,
            meanRow (vsRow x0 x1 n.val) (nbrCount x1 n.val) k * meanRow (vsRow x0 x1 n.val) (nbrCount x1 n.val) k))
          (Ideal.ofBits .f32 0x2B8CBCCC#32) := by
  have h26 : idx_main_v26 (ix2 n q) = ix2 n (0 : Fin 1) := by
    funext a; apply Fin.ext; match a with | ⟨0, _⟩ => rfl | ⟨1, _⟩ => rfl
  have h2 : idx_main_call0_v2 (ix2 n (0 : Fin 1)) = ix1 n := by
    funext a; match a with | ⟨0, _⟩ => rfl
  rw [val_main_v26_apply, h26, val_main_v25_apply, val_main_v23_apply, val_main_call0_v2_apply, h2, sq_at,
    val_main_v24_apply, val_main_cst_4_apply, Ideal.maximumf_def, Ideal.hostUnary_sqrt_def, Ideal.ofBits_def]

/-! ## The result -/

/-- THE REFERENCE'S RESULT is the mean aggregation followed by row normalisation, as the one function of the feature
    table and the edge list. -/
theorem val_eq_spec (x0 : FVec Ideal S100000x128 .f32) (x1 : IVec S2x1600000 32) :
    val_main_v27 (F := Ideal) x0 x1 = spec x0 x1 := by
  funext i
  obtain ⟨n, q, rfl⟩ : ∃ (n : Fin 100000) (q : Fin 128), i = ix2 n q := ⟨i 0, i 1, eq_ix2 i⟩
  rw [val_main_v27_apply, v22_at, v26_at, Ideal.hostDivf_def]
  rfl

end Cert.SegNorm.Ref

end
-- ==== Proof.lean ====
/-
  A kernel that aggregates neighbour rows over a graph's edge list and normalises each node's mean row, against its
  reference; the claim: the three programs run and keep their arguments, and the idealized kernel and the idealized
  reference end with equal results, for every finite feature table and every edge list whose carried-row words lie in
  −100 000 ≤ d < 100 000 (the words the reference itself can index the 100 000-row table with, a negative word counting
  from the table's end).

  THE KERNEL. Outside the pallas_call it gathers, for each of the 1 600 000 edges, the table row the edge carries (a word
  outside the range above would read a junk row there, where the reference clamps: the one place the two programs differ,
  and the reason for the range). The call runs 196 row tiles of 512 nodes against 250 chunks of 6 400 edges: at each
  grid point it compares the tile's node numbers with the chunk's source words, multiplies the resulting 0/1 matrix
  with the chunk's carried rows and adds the product to a running [512, 128] sum, adds the 0/1 matrix's row sums to a
  running [512, 1] count, both reset at a tile's first chunk; at the tile's last chunk it divides the sums by the counts
  (kept at least one), divides each mean row by the larger of its Euclidean norm and a small constant, and writes the
  block back, the last tile's block cut at the table's 100 000th row.

  THE REFERENCE scatters the carried rows, and ones, into per-node sums and counts by source word (a word naming no node is
  dropped), and finishes the same way on whole arrays.

  WHY THEY AGREE over the extended reals. A product with a 0/1 weight either keeps or drops its factor, so a tile's 250
  chunk products, added up, are the sum over ALL edges of the weighted carried rows: the sum over the edges into the
  node (sums over the extended reals commute and associate; no finiteness is needed). A node number below 2^31 equals a
  source word exactly when the word's signed value is the number, which is the reference's landing rule. The finishing
  operations are the same operations on both sides.

  The generated frame modules are used through copies (K/…, KI/…) whose first module proves the grid facts it needs from
  one coordinate's 250 values rather than point by point.

  The modules: Spec (the result as one function), SumSpec (a tile's 250 addends are the node's sums), RefValue (the
  reference is that function), KernelPieces / KernelPay / KernelHost (what the body stores, read at an element; what the
  two input windows stage), KernelAcc (the running sums after each point), KernelFinal (blocks to array, the run).
-/
import proofs.«409495_j18966575579290_1_alg».proof.Defs
import proofs.«409495_j18966575579290_1_alg».proof.Proof.Gen.Kernel
import proofs.«409495_j18966575579290_1_alg».proof.Proof.Gen.Kernel.Skeleton
import proofs.«409495_j18966575579290_1_alg».proof.Proof.Gen.Kernel.Launch
import proofs.«409495_j18966575579290_1_alg».proof.Proof.Gen.Kernel.Points
import proofs.«409495_j18966575579290_1_alg».proof.Proof.K.Frame
import proofs.«409495_j18966575579290_1_alg».proof.Proof.Gen.KernelIdeal
import proofs.«409495_j18966575579290_1_alg».proof.Proof.Gen.KernelIdeal.Skeleton
import proofs.«409495_j18966575579290_1_alg».proof.Proof.Gen.KernelIdeal.Launch
import proofs.«409495_j18966575579290_1_alg».proof.Proof.Gen.KernelIdeal.Points
import proofs.«409495_j18966575579290_1_alg».proof.Proof.KI.Frame
import proofs.«409495_j18966575579290_1_alg».proof.Proof.Gen.ReferenceIdeal
import proofs.«409495_j18966575579290_1_alg».proof.Proof.Gen.Pre_finite_inputs
import proofs.«409495_j18966575579290_1_alg».proof.Proof.KI.Value
import proofs.«409495_j18966575579290_1_alg».proof.Proof.Gen.ReferenceIdeal.Run
import proofs.«409495_j18966575579290_1_alg».proof.Proof.Gen.ReferenceIdeal.Read
import proofs.«409495_j18966575579290_1_alg».proof.Proof.KernelFinal
import proofs.«409495_j18966575579290_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the feature table and the edge list, the idealized kernel's result array and the
    idealized reference's both end at the one function of those two arrays. -/
theorem algebraic : Cert.algebraic_KernelIdeal_ReferenceIdeal := by
  intro m ρ m' ρ' hpre hagree
  refine ⟨fun c => Cert.SegNorm.Final.result m c, Cert.SegNorm.Final.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.SegNorm.Ref.val_eq_spec, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
